-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S50000x128 .f32) (main_arg1 : FVec F S128x128 .f32) (main_arg2 : FVec F S128 .f32) (main_arg3 : FVec F S128 .f32) (main_arg4 : IVec S600000 32) (main_arg5 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S5000x128 : Shape := ⟨2, ![5000, 128]⟩
abbrev S5000x1 : Shape := ⟨2, ![5000, 1]⟩
abbrev S5000 : Shape := ⟨1, ![5000]⟩

abbrev nBuf : Space → Nat
  | .hbm => 56
  | .vmem => 17
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S600000, .i32⟩
  | .hbm, ⟨5, _⟩ => ⟨S600000, .i32⟩
  | .hbm, ⟨6, _⟩ => ⟨S_, .f32⟩
  | .hbm, ⟨7, _⟩ => ⟨S600000, .f32⟩
  | .hbm, ⟨8, _⟩ => ⟨S_, .f32⟩
  | .hbm, ⟨9, _⟩ => ⟨S50000, .f32⟩
  | .hbm, ⟨10, _⟩ => ⟨S600000x1, .i32⟩
  | .hbm, ⟨11, _⟩ => ⟨S50000, .f32⟩
  | .hbm, ⟨12, _⟩ => ⟨S_, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S600000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x128, .f32⟩
  | .hbm, ⟨27, _⟩ => ⟨S50000x128, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S_, .f32⟩
  | .hbm, ⟨38, _⟩ => ⟨S50000x128, .f32⟩
  | .hbm, ⟨39, _⟩ => ⟨S600000x1, .i32⟩
  | .hbm, ⟨40, _⟩ => ⟨S50000x128, .f32⟩
  | .hbm, ⟨41, _⟩ => ⟨S50000x1, .f32⟩
  | .hbm, ⟨42, _⟩ => ⟨S50000x128, .f32⟩
  | .hbm, ⟨43, _⟩ => ⟨S1x128, .f32⟩
  | .hbm, ⟨44, _⟩ => ⟨S1x128, .f32⟩
  | .hbm, ⟨45, _⟩ => ⟨S_, .f32⟩
  | .hbm, ⟨46, _⟩ => ⟨S1x128, .f32⟩
  | .hbm, ⟨47, _⟩ => ⟨S1x128, .f32⟩
  | .hbm, ⟨48, _⟩ => ⟨S_, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_v24_2 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S50000_S50000x1 : S50000.ShapeCasts S50000x1
  inb_S1x128_S1x128_0_0 : ∀ a, (![0, 0] : Fin 2 → Nat) a + S1x128.size a ≤ S1x128.size a
  h_S1x128 : 0 < S1x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  reduces_S5000x128_S5000 : S5000x128.Reduces [1] S5000
  shapeCasts_S5000_S5000x1 : S5000.ShapeCasts S5000x1
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24_1) S1x128.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24_2) S1x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S600000, .i32⟩
  | .hbm, ⟨5, _⟩ => ⟨S600000, .i32⟩
  | .hbm, ⟨6, _⟩ => ⟨S_, .f32⟩
  | .hbm, ⟨7, _⟩ => ⟨S600000, .f32⟩
  | .hbm, ⟨8, _⟩ => ⟨S_, .f32⟩
  | .hbm, ⟨9, _⟩ => ⟨S50000, .f32⟩
  | .hbm, ⟨10, _⟩ => ⟨S600000x1, .i32⟩
  | .hbm, ⟨11, _⟩ => ⟨S50000, .f32⟩
  | .hbm, ⟨12, _⟩ => ⟨S_, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S600000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x128, .f32⟩
  | .hbm, ⟨27, _⟩ => ⟨S50000x128, .f32⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S_, .f32⟩
  | .hbm, ⟨38, _⟩ => ⟨S50000x128, .f32⟩
  | .hbm, ⟨39, _⟩ => ⟨S600000x1, .i32⟩
  | .hbm, ⟨40, _⟩ => ⟨S50000x128, .f32⟩
  | .hbm, ⟨41, _⟩ => ⟨S50000, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S_, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000, .f32⟩
  | .hbm, ⟨82, _⟩ => ⟨S50000x1, .f32⟩
  | .hbm, ⟨83, _⟩ => ⟨S50000x1, .f32⟩
  | .hbm, ⟨84, _⟩ => ⟨S_, .f32⟩
  | .hbm, ⟨85, _⟩ => ⟨S50000x1, .f32⟩
  | .hbm, ⟨86, _⟩ => ⟨S50000x1, .f32⟩
  | .hbm, ⟨87, _⟩ => ⟨S50000x128, .f32⟩
  | .hbm, ⟨88, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call2_cst : Ref sig .tc := ⟨.hbm, 76, rfl⟩
abbrev main_call2_v0 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  bcast_S_S50000x1 : S_.BroadcastsInDim S50000x1 (![] : Fin 0 → Fin S50000x1.rank)
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Reals.lean ====
/-
  Finite extended reals, and the two ways of writing a batch variance.

  An extended real is finite when it is the image of a real number. Finite values are closed under sums, products,
  differences and finite sums, and the reciprocal square root of anything that is at least one is finite (at plus
  infinity it is zero). For a finite family `x` indexed by `N` points, with mean `μ = (∑ x) / N`, the biased variance
  has two spellings, `(∑ (x - μ)²) / N` and `(∑ x²) / N - μ²`; they agree because `∑ (x - μ)² = ∑ x² - 2 μ ∑ x + N μ²`
  and `∑ x = N μ`. On the extended reals the identity needs every `x` finite: with an infinite entry one side is
  plus infinity and the other minus infinity.
-/
import Idealize.ShloMosaic.PureOps.Ideal
import Idealize.ShloMosaic.PureOps.Ideal.Laws

noncomputable section

namespace Cert.Reals

open Idealize.ShloMosaic

/-- The word `50000.0` denotes the real number 50000. -/
theorem ofBits_50000 : Ideal.ofBits .f32 0x47435000#32 = ((50000 : ℝ) : EReal) := by
  simp [Ideal.ofBits, Ideal.ieee, -EReal.coe_mul]; norm_num

/-- The word `1.0` denotes one. -/
theorem ofBits_one : Ideal.ofBits .f32 0x3F800000#32 = 1 := by
  simp [Ideal.ofBits, Ideal.ieee, -EReal.coe_mul]; norm_num

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_of_ne {x : EReal} (h1 : x ≠ ⊤) (h2 : x ≠ ⊥) : IsReal x := ⟨x.toReal, (EReal.coe_toReal h1 h2).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of finite values is finite. -/
theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of the larger of one and anything is finite: of a real at least one it is a positive
    real, and of plus infinity it is zero. -/
theorem isReal_rsqrt_max_one (x : EReal) : IsReal (Ideal.rsqrt (max 1 x)) := by
  have h1 : (1 : EReal) ≤ max 1 x := le_max_left _ _
  generalize max 1 x = y at h1
  induction y using EReal.rec with
  | bot => exact absurd (le_bot_iff.mp h1) (by exact_mod_cast EReal.coe_ne_bot 1)
  | top => exact ⟨0, by rw [Ideal.rsqrt_top]; rfl⟩
  | coe r =>
    have hr : (1 : ℝ) ≤ r := by exact_mod_cast h1
    rw [Ideal.rsqrt_coe, if_neg (by linarith), if_neg (by linarith)]
    exact isReal_coe _

/-- The quotient of a finite value by a nonzero real is finite. -/
theorem IsReal.div_coe {x : EReal} (hx : IsReal x) {y : ℝ} (hy : y ≠ 0) : IsReal (Ideal.div x (y : EReal)) := by
  rw [Ideal.div_coe hy]; exact hx.mul (isReal_coe _)

/-- THE VARIANCE, TWO WAYS. For finite `x i` over an index type of `N` elements, the mean of the squared deviations
    from the mean is the mean of the squares minus the square of the mean. -/
theorem variance_two_ways {ι : Type} [Fintype ι] (x : ι → EReal) (hx : ∀ i, IsReal (x i)) (N : ℝ) (hN : N ≠ 0)
    (hcard : (Fintype.card ι : ℝ) = N) :
    Ideal.div (∑ i, (x i - Ideal.div (∑ i, x i) (N : EReal)) * (x i - Ideal.div (∑ i, x i) (N : EReal))) (N : EReal)
      = Ideal.div (∑ i, x i * x i) (N : EReal) - Ideal.div (∑ i, x i) (N : EReal) * Ideal.div (∑ i, x i) (N : EReal) := by
  choose r hr using hx
  have hx' : x = fun i => (r i : EReal) := funext hr
  subst hx'
  have key : ∑ i, (r i - (∑ i, r i) * (1 / N)) * (r i - (∑ i, r i) * (1 / N))
      = ∑ i, r i * r i - 2 * ((∑ i, r i) * (1 / N)) * (∑ i, r i) + N * (((∑ i, r i) * (1 / N)) * ((∑ i, r i) * (1 / N))) := by
    have e : ∀ i, (r i - (∑ i, r i) * (1 / N)) * (r i - (∑ i, r i) * (1 / N))
        = r i * r i - 2 * ((∑ i, r i) * (1 / N)) * r i + ((∑ i, r i) * (1 / N)) * ((∑ i, r i) * (1 / N)) := fun i => by ring
    simp only [e, Finset.sum_add_distrib, Finset.sum_sub_distrib, ← Finset.mul_sum, Finset.sum_const, Finset.card_univ,
      nsmul_eq_mul, hcard]
    ring
  simp only [Ideal.div_coe hN, ← coe_sum, ← EReal.coe_mul, ← EReal.coe_sub]
  rw [key]
  congr 1
  field_simp
  ring

/-- Rows `0 … 49999` as ten consecutive tiles of 5000: the pair (tile, row in the tile) ↦ 5000 · tile + row. -/
def tileRow (t : Fin 10) (p : Fin 5000) : Fin 50000 := ⟨5000 * t.val + p.val, by have := t.isLt; have := p.isLt; omega⟩

/-- A sum over all rows is the sum over the tiles of the sums over each tile's rows (in any commutative monoid). -/
theorem sum_rows_eq_sum_tiles {M : Type} [AddCommMonoid M] (f : Fin 50000 → M) :
    ∑ r : Fin 50000, f r = ∑ t : Fin 10, ∑ p : Fin 5000, f (tileRow t p) := by
  rw [← Finset.sum_product']
  refine (Finset.sum_bij' (fun (tp : Fin 10 × Fin 5000) _ => tileRow tp.1 tp.2)
    (fun (r : Fin 50000) _ => ((⟨r.val / 5000, by have := r.isLt; omega⟩ : Fin 10), (⟨r.val % 5000, Nat.mod_lt _ (by norm_num)⟩ : Fin 5000)))
    (fun _ _ => Finset.mem_univ _) (fun _ _ => Finset.mem_univ _) ?_ ?_ (fun _ _ => rfl)).symm
  · rintro ⟨t, p⟩ _
    have ht := t.isLt; have hp := p.isLt
    refine Prod.ext (Fin.ext ?_) (Fin.ext ?_)
    · show (5000 * t.val + p.val) / 5000 = t.val; omega
    · show (5000 * t.val + p.val) % 5000 = p.val; omega
  · intro r _
    refine Fin.ext ?_
    show 5000 * (r.val / 5000) + r.val % 5000 = r.val
    omega

end Cert.Reals

end
-- ==== Proof.Spec.lean ====
/-
  The layer, row by row, on the extended reals.

  A row of aggregated features is scaled by the reciprocal square root of the node's in-degree and multiplied by the
  weight matrix: entry `j` of the projected row is `∑ k, (a k · rsqrt d) · W k j`. Over the 50000 projected rows, the
  mean of column `j` is `(∑ r, x r j) / 50000`; the batch variance is written in two ways, as the mean of the squares
  minus the square of the mean, and as the mean of the squared deviations. A row is then normalised with those
  statistics, scaled and shifted, clipped below at zero, and divided by the larger of its Euclidean norm and a small
  constant.
-/
import Idealize.ShloMosaic.PureOps.Ideal
import proofs.«125863_j61847529063045_1_alg».proof.Proof.Reals

noncomputable section

namespace Cert.Spec

open Idealize.ShloMosaic Cert.Reals

/-- The words the two programs share: the batch size, the variance's epsilon, the norm's floor. -/
abbrev cN : EReal := Ideal.ofBits .f32 0x47435000#32
abbrev epsBN : EReal := Ideal.ofBits .f32 0x3727C5AC#32
abbrev epsL2 : EReal := Ideal.ofBits .f32 0x2B8CBCCC#32

/-- A projected row: the aggregated row `a`, scaled by `rsqrt d`, times the weights. -/
def proj (a : Fin 128 → EReal) (d : EReal) (W : Fin 128 → Fin 128 → EReal) (j : Fin 128) : EReal :=
  ∑ k : Fin 128, (a k * Ideal.rsqrt d) * W k j

/-- Column means over the 50000 rows. -/
def mean (x : Fin 50000 → Fin 128 → EReal) (j : Fin 128) : EReal := Ideal.div (∑ r, x r j) cN

/-- The variance as the mean of the squares minus the square of the mean. -/
def varSq (x : Fin 50000 → Fin 128 → EReal) (j : Fin 128) : EReal :=
  Ideal.div (∑ r, x r j * x r j) cN - mean x j * mean x j

/-- The variance as the mean of the squared deviations from the mean. -/
def varDev (x : Fin 50000 → Fin 128 → EReal) (j : Fin 128) : EReal :=
  Ideal.div (∑ r, (x r j - mean x j) * (x r j - mean x j)) cN

/-- A row after batch normalisation, scale and shift, and the clip at zero. -/
def act (x mu var gamma beta : Fin 128 → EReal) (j : Fin 128) : EReal :=
  max ((x j - mu j) * Ideal.rsqrt (var j + epsBN) * gamma j + beta j) 0

/-- The row divided by the larger of its Euclidean norm and the floor. -/
def outRow (x mu var gamma beta : Fin 128 → EReal) (j : Fin 128) : EReal :=
  Ideal.div (act x mu var gamma beta j)
    (max (Ideal.sqrt (∑ l : Fin 128, act x mu var gamma beta l * act x mu var gamma beta l)) epsL2)

/-- When every entry is finite the two variances are one number. -/
theorem varDev_eq_varSq (x : Fin 50000 → Fin 128 → EReal) (hx : ∀ r j, IsReal (x r j)) (j : Fin 128) :
    varDev x j = varSq x j := by
  unfold varDev varSq mean cN
  rw [ofBits_50000]
  exact variance_two_ways (fun r => x r j) (fun r => hx r j) 50000 (by norm_num) (by simp)

/-- A projected row is finite when the aggregated row and the weights are and the degree is at least one. -/
theorem isReal_proj (a : Fin 128 → EReal) (ha : ∀ k, IsReal (a k)) (d : EReal) (W : Fin 128 → Fin 128 → EReal)
    (hW : ∀ k j, IsReal (W k j)) (j : Fin 128) : IsReal (proj a (max 1 d) W j) :=
  isReal_sum _ _ fun k _ => ((ha k).mul (isReal_rsqrt_max_one d)).mul (hW k j)

end Cert.Spec

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.KPay.lean ====
/-
  The two kernel bodies' arithmetic, read at one entry on the extended reals.

  First kernel: the stored tile at (p, j) is the projection of row p of the loaded tile; the column-sum update at j is
  the old accumulator plus the sum over the tile's rows of the stored tile's column j, and likewise for the squares.
  Second kernel: the stored tile at (p, j) is row p normalised, scaled, shifted, clipped and divided by its norm.
-/
import proofs.«125863_j61847529063045_1_alg».proof.Proof.Gen.KernelIdeal.Skeleton
import proofs.«125863_j61847529063045_1_alg».proof.Proof.Spec
import proofs.«125863_j61847529063045_1_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Pay

open Cert.KernelIdeal Cert.KernelIdeal.Gen

/-! ## Layout operations and sums the payloads use, read at an index -/

section Layout
variable {α : Type}

/-- An `[a, 1]` column laid along every column of `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector viewed as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- The sum of a tile down its rows, read at column `j`: the sum over the rows of the tile's entries in that column. -/
theorem colSum_apply (T : FVec Ideal S5000x128 .f32) (hφ : FKind.Formats .f32)
    (hacc : (0x00000000#32 : BitVec 32) = FKind.add.neutral .f32 hφ) (j : Fin 128) :
    multiReduction .add [0] S128 T 0x00000000#32 reduces_S5000x128_S128 hφ hacc (ix1 j) = ∑ p : Fin 5000, T (ix2 p j) := by
  refine (Ideal.multiReduction_add_single T 0x00000000#32 reduces_S5000x128_S128 hφ hacc (ix1 j)).trans ?_
  show ∑ k : Fin 5000, T (reduces_S5000x128_S128.lift (ix1 j) k) = _
  refine Finset.sum_congr rfl fun k _ => congrArg T (funext fun a => Fin.ext ?_)
  match a with
  | ⟨0, _⟩ => rfl
  | ⟨1, _⟩ => rfl

/-- The sum of a tile along its rows, read at row `p`: the sum over the columns of the tile's entries in that row. -/
theorem rowSum_apply (T : FVec Ideal S5000x128 .f32) (hφ : FKind.Formats .f32)
    (hacc : (0x00000000#32 : BitVec 32) = FKind.add.neutral .f32 hφ) (p : Fin 5000) :
    multiReduction .add [1] S5000 T 0x00000000#32 reduces_S5000x128_S5000 hφ hacc (ix1 p) = ∑ l : Fin 128, T (ix2 p l) := by
  refine (Ideal.multiReduction_add_single T 0x00000000#32 reduces_S5000x128_S5000 hφ hacc (ix1 p)).trans ?_
  show ∑ k : Fin 128, T (reduces_S5000x128_S5000.lift (ix1 p) k) = _
  refine Finset.sum_congr rfl fun k _ => congrArg T (funext fun a => Fin.ext ?_)
  match a with
  | ⟨0, _⟩ => rfl
  | ⟨1, _⟩ => rfl

/-- A rows-by-columns product of a tile with the weights, accumulated into zero, read at `(p, j)`. The dimension
    numbers may be any record that is the rows-by-columns one. -/
theorem matmul_zero_apply (d : DotDims S5000x128 S128x128 S5000x128) (hd : d = DotDims.plain 5000 128 128)
    (prec : Option ContractPrecision) (lhs : FVec Ideal S5000x128 .f32) (rhs : FVec Ideal S128x128 .f32)
    (p : Fin 5000) (j : Fin 128) :
    matmul d prec lhs rhs (constant (F := Ideal) S5000x128 .f32 0x00000000#32) (ix2 p j)
      = ∑ k : Fin 128, lhs (ix2 p k) * rhs (ix2 k j) := by
  subst hd
  exact Cert.LibDense.matmul_plain_zero_apply prec lhs rhs p j

/-! ## The first kernel -/

/-- The cleared accumulators hold zero. -/
theorem pay1_apply (j : Fin 128) : k0_pay1 (F := Ideal) (ix2 (0 : Fin 1) j) = 0 := by
  unfold k0_pay1
  exact Ideal.ofBits_zero_f32

theorem pay2_apply (j : Fin 128) : k0_pay2 (F := Ideal) (ix2 (0 : Fin 1) j) = 0 := by
  unfold k0_pay2
  exact Ideal.ofBits_zero_f32

/-- The stored tile: row p of the loaded tile, projected. -/
theorem pay3_apply (v3 : Vec Ideal S5000x1 .f32) (v6 : Vec Ideal S5000x128 .f32) (v10 : Vec Ideal S128x128 .f32)
    (p : Fin 5000) (j : Fin 128) :
    k0_pay3 v3 v6 v10 (ix2 p j)
      = Cert.Spec.proj (fun k => v6 (ix2 p k)) (v3 (ix2 p (0 : Fin 1))) (fun k j => v10 (ix2 k j)) j := by
  unfold k0_pay3 Cert.Spec.proj
  simp only [shapeCast_self]
  refine (matmul_zero_apply _ rfl none _ v10 p j).trans ?_
  refine Finset.sum_congr rfl fun k _ => congrArg (· * v10 (ix2 k j)) ?_
  -- the scaled tile at (p, k): the entry times the reciprocal root of row p's degree
  show v6 (ix2 p k) * broadcastTo S5000x128 (rsqrt (F := Ideal) (φ := .f32) v3) broadcasts_S5000x1_S5000x128 (ix2 p k) = _
  rw [broadcastTo_a1_ab_apply]
  rfl

/-- The column-sum update. -/
theorem pay4_apply (v3 : Vec Ideal S5000x1 .f32) (v6 : Vec Ideal S5000x128 .f32) (v10 : Vec Ideal S128x128 .f32)
    (v13 : Vec Ideal S1x128 .f32) (j : Fin 128) :
    k0_pay4 v3 v6 v10 v13 (ix2 (0 : Fin 1) j)
      = v13 (ix2 (0 : Fin 1) j) + ∑ p : Fin 5000, k0_pay3 v3 v6 v10 (ix2 p j) := by
  unfold k0_pay4
  generalize k0_pay3 v3 v6 v10 = T
  simp only [shapeCast_self]
  show v13 (ix2 (0 : Fin 1) j)
      + shapeCast S1x128 (multiReduction .add [0] S128 T 0x00000000#32 reduces_S5000x128_S128 (.inl rfl) rfl)
          shapeCasts_S128_S1x128 (ix2 (0 : Fin 1) j) = _
  rw [shapeCast_a_1a_apply]
  exact congrArg (v13 (ix2 (0 : Fin 1) j) + ·) (colSum_apply T _ _ j)

/-- The update of the column sums of the squares. -/
theorem pay5_apply (v3 : Vec Ideal S5000x1 .f32) (v6 : Vec Ideal S5000x128 .f32) (v10 : Vec Ideal S128x128 .f32)
    (v19 : Vec Ideal S1x128 .f32) (j : Fin 128) :
    k0_pay5 v3 v6 v10 v19 (ix2 (0 : Fin 1) j)
      = v19 (ix2 (0 : Fin 1) j) + ∑ p : Fin 5000, k0_pay3 v3 v6 v10 (ix2 p j) * k0_pay3 v3 v6 v10 (ix2 p j) := by
  unfold k0_pay5
  generalize k0_pay3 v3 v6 v10 = T
  simp only [shapeCast_self]
  show v19 (ix2 (0 : Fin 1) j)
      + shapeCast S1x128 (multiReduction .add [0] S128 (mulf T T) 0x00000000#32 reduces_S5000x128_S128 (.inl rfl) rfl)
          shapeCasts_S128_S1x128 (ix2 (0 : Fin 1) j) = _
  rw [shapeCast_a_1a_apply]
  exact congrArg (v19 (ix2 (0 : Fin 1) j) + ·) (colSum_apply (mulf T T) _ _ j)

/-! ## The second kernel -/

/-- The tile after normalisation with the statistics, scale, shift and the clip at zero. -/
def actTile (v0 : Vec Ideal S5000x128 .f32) (v2 v6 v13 v17 : Vec Ideal S1x128 .f32) : FVec Ideal S5000x128 .f32 :=
  maximumf
    (addf
      (mulf
        (mulf
          (subf (shapeCast S5000x128 v0 shapeCasts_S5000x128_S5000x128)
            (broadcastTo S5000x128 (shapeCast S1x128 v2 shapeCasts_S1x128_S1x128) broadcasts_S1x128_S5000x128))
          (broadcastTo S5000x128
            (rsqrt (addf (shapeCast S1x128 v6 shapeCasts_S1x128_S1x128)
              (broadcast S1x128 (Scalar.ofBits (F := Ideal) .f32 0x3727C5AC#32))))
            broadcasts_S1x128_S5000x128))
        (broadcastTo S5000x128 (shapeCast S1x128 v13 shapeCasts_S1x128_S1x128) broadcasts_S1x128_S5000x128))
      (broadcastTo S5000x128 (shapeCast S1x128 v17 shapeCasts_S1x128_S1x128) broadcasts_S1x128_S5000x128))
    (broadcast S5000x128 (Scalar.ofBits (F := Ideal) .f32 0x00000000#32))

/-- A tile with every row divided by the larger of the row's Euclidean norm and the floor. -/
def normTile (A : FVec Ideal S5000x128 .f32) : FVec Ideal S5000x128 .f32 :=
  divf A
    (broadcastTo S5000x128
      (maximumf
        (sqrt (shapeCast S5000x1
          (multiReduction .add [1] S5000 (mulf A A) 0x00000000#32 reduces_S5000x128_S5000 (.inl rfl) rfl)
          shapeCasts_S5000_S5000x1))
        (broadcast S5000x1 (Scalar.ofBits (F := Ideal) .f32 0x2B8CBCCC#32)))
      broadcasts_S5000x1_S5000x128)

/-- The second kernel's stored tile is the normalised, clipped tile with its rows divided by their norms. -/
theorem k1_pay1_eq (v0 : Vec Ideal S5000x128 .f32) (v2 v6 v13 v17 : Vec Ideal S1x128 .f32) :
    k1_pay1 v0 v2 v6 v13 v17 = normTile (actTile v0 v2 v6 v13 v17) := rfl

/-- The clipped tile at `(p, j)`: row p's entry j after normalisation, scale, shift and clip. -/
theorem actTile_apply (v0 : Vec Ideal S5000x128 .f32) (v2 v6 v13 v17 : Vec Ideal S1x128 .f32) (p : Fin 5000) (j : Fin 128) :
    actTile v0 v2 v6 v13 v17 (ix2 p j)
      = Cert.Spec.act (fun j => v0 (ix2 p j)) (fun j => v2 (ix2 (0 : Fin 1) j)) (fun j => v6 (ix2 (0 : Fin 1) j))
          (fun j => v13 (ix2 (0 : Fin 1) j)) (fun j => v17 (ix2 (0 : Fin 1) j)) j := by
  unfold actTile Cert.Spec.act
  simp only [shapeCast_self]
  show max
      ((v0 (ix2 p j) - broadcastTo S5000x128 v2 broadcasts_S1x128_S5000x128 (ix2 p j))
          * broadcastTo S5000x128 (rsqrt (addf v6 (broadcast S1x128 (Scalar.ofBits (F := Ideal) .f32 0x3727C5AC#32))))
              broadcasts_S1x128_S5000x128 (ix2 p j)
          * broadcastTo S5000x128 v13 broadcasts_S1x128_S5000x128 (ix2 p j)
        + broadcastTo S5000x128 v17 broadcasts_S1x128_S5000x128 (ix2 p j))
      (Ideal.ofBits .f32 0x00000000#32) = _
  rw [broadcastTo_1b_ab_apply, broadcastTo_1b_ab_apply, broadcastTo_1b_ab_apply, broadcastTo_1b_ab_apply,
    Ideal.ofBits_zero_f32]
  rfl

/-- A row-normalised tile at `(p, j)`: the entry over the larger of row p's norm and the floor. -/
theorem normTile_apply (A : FVec Ideal S5000x128 .f32) (p : Fin 5000) (j : Fin 128) :
    normTile A (ix2 p j)
      = Ideal.div (A (ix2 p j)) (max (Ideal.sqrt (∑ l : Fin 128, A (ix2 p l) * A (ix2 p l))) Cert.Spec.epsL2) := by
  unfold normTile
  refine congrArg (Ideal.div (A (ix2 p j))) ?_
  rw [broadcastTo_a1_ab_apply]
  refine congrArg (fun s => max (Ideal.sqrt s) Cert.Spec.epsL2) ?_
  rw [shapeCast_a_a1_apply]
  exact rowSum_apply (mulf A A) _ _ p

/-- The second kernel's stored tile: row p finished with the statistics and the scale and shift rows. -/
theorem pay1_fin_apply (v0 : Vec Ideal S5000x128 .f32) (v2 v6 v13 v17 : Vec Ideal S1x128 .f32) (p : Fin 5000) (j : Fin 128) :
    k1_pay1 v0 v2 v6 v13 v17 (ix2 p j)
      = Cert.Spec.outRow (fun j => v0 (ix2 p j)) (fun j => v2 (ix2 (0 : Fin 1) j)) (fun j => v6 (ix2 (0 : Fin 1) j))
          (fun j => v13 (ix2 (0 : Fin 1) j)) (fun j => v17 (ix2 (0 : Fin 1) j)) j := by
  rw [k1_pay1_eq, normTile_apply]
  unfold Cert.Spec.outRow
  simp only [actTile_apply]

end Cert.KernelIdeal.Pay

end
-- ==== Proof.KPieces.lean ====
/-
  What one run of the first kernel's body leaves in its three output buffers, as values.

  On the first tile the body clears the two accumulators, then stores the projected tile and adds the tile's column
  sums (and the column sums of the squares) to the cleared accumulators; on every later tile it does the same over
  what the accumulators held. Each buffer is written whole, so what it holds afterwards is the last value stored.
-/
import proofs.«125863_j61847529063045_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of every load and store of the body, as the constant function. -/
private theorem hz : (![0, 0] : Fin 2 → Nat) = fun _ => 0 := funext fun a => by fin_cases a <;> rfl

/-- First tile: the projected tile. -/
theorem out_A_3 (c : Dev nD) (i : grid0.Coords) (a1 : Memref sig .tc .vmem S5000x128 .f32) (h1 : a1.IsWhole) (a2 : Memref sig .tc .vmem S5000x1 .f32) (h2 : a2.IsWhole) (a3 : Memref sig .tc .vmem S128x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i)
    (x0 : Vec F S5000x128 .f32) (x1 : Vec F S5000x1 .f32) (x2 : Vec F S128x128 .f32) :
    out0_A_3 c i a1 h1 a2 h2 a3 h3 a4 h4 a5 h5 a6 h6 hc x0 x1 x2 = k0_pay3 x1 x0 x2 := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero hz]
  simp only [View.readAt_eq_ld, h1.read_unread, h2.read_unread, h3.read_unread,
    View.ld_unit_zero (S := S5000x128) hz, View.ld_unit_zero (S := S5000x1) hz, View.ld_unit_zero (S := S128x128) hz,
    View.ld_unit_zero (S := S1x128) hz]

/-- First tile: the column sums, over the cleared accumulator. -/
theorem out_A_4 (c : Dev nD) (i : grid0.Coords) (a1 : Memref sig .tc .vmem S5000x128 .f32) (h1 : a1.IsWhole) (a2 : Memref sig .tc .vmem S5000x1 .f32) (h2 : a2.IsWhole) (a3 : Memref sig .tc .vmem S128x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i)
    (x0 : Vec F S5000x128 .f32) (x1 : Vec F S5000x1 .f32) (x2 : Vec F S128x128 .f32) :
    out0_A_4 c i a1 h1 a2 h2 a3 h3 a4 h4 a5 h5 a6 h6 hc x0 x1 x2 = k0_pay4 x1 x0 x2 (k0_pay1 (F := F)) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S5000x1) hz, View.ld_unit_zero (S := S128x128) hz,
    View.ld_unit_zero (S := S1x128) hz]

/-- First tile: the column sums of the squares, over the cleared accumulator. -/
theorem out_A_5 (c : Dev nD) (i : grid0.Coords) (a1 : Memref sig .tc .vmem S5000x128 .f32) (h1 : a1.IsWhole) (a2 : Memref sig .tc .vmem S5000x1 .f32) (h2 : a2.IsWhole) (a3 : Memref sig .tc .vmem S128x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : cond0_0 i)
    (x0 : Vec F S5000x128 .f32) (x1 : Vec F S5000x1 .f32) (x2 : Vec F S128x128 .f32) :
    out0_A_5 c i a1 h1 a2 h2 a3 h3 a4 h4 a5 h5 a6 h6 hc x0 x1 x2 = k0_pay5 x1 x0 x2 (k0_pay2 (F := F)) := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread,
    View.ld_unit_zero (S := S5000x128) hz, View.ld_unit_zero (S := S5000x1) hz, View.ld_unit_zero (S := S128x128) hz,
    View.ld_unit_zero (S := S1x128) hz]

/-- A later tile: the projected tile. -/
theorem out_B_3 (c : Dev nD) (i : grid0.Coords) (a1 : Memref sig .tc .vmem S5000x128 .f32) (h1 : a1.IsWhole) (a2 : Memref sig .tc .vmem S5000x1 .f32) (h2 : a2.IsWhole) (a3 : Memref sig .tc .vmem S128x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i)
    (x0 : Vec F S5000x128 .f32) (x1 : Vec F S5000x1 .f32) (x2 : Vec F S128x128 .f32) (xo4 xo5 : Vec F S1x128 .f32) :
    out0_B_3 c i a1 h1 a2 h2 a3 h3 a4 h4 a5 h5 a6 h6 hc x0 x1 x2 xo4 xo5 = k0_pay3 x1 x0 x2 := by
  unfold out0_B_3
  rw [View.read_writes_eq_canon _ _ _ (cover0_B_3 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread,
    View.ld_unit_zero (S := S5000x128) hz, View.ld_unit_zero (S := S5000x1) hz, View.ld_unit_zero (S := S128x128) hz,
    View.ld_unit_zero (S := S1x128) hz]

/-- A later tile: the column sums, over what the accumulator held. -/
theorem out_B_4 (c : Dev nD) (i : grid0.Coords) (a1 : Memref sig .tc .vmem S5000x128 .f32) (h1 : a1.IsWhole) (a2 : Memref sig .tc .vmem S5000x1 .f32) (h2 : a2.IsWhole) (a3 : Memref sig .tc .vmem S128x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i)
    (x0 : Vec F S5000x128 .f32) (x1 : Vec F S5000x1 .f32) (x2 : Vec F S128x128 .f32) (xo4 xo5 : Vec F S1x128 .f32) :
    out0_B_4 c i a1 h1 a2 h2 a3 h3 a4 h4 a5 h5 a6 h6 hc x0 x1 x2 xo4 xo5 = k0_pay4 x1 x0 x2 xo4 := by
  unfold out0_B_4
  rw [View.read_writes_eq_canon _ _ _ (cover0_B_4 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread,
    View.ld_unit_zero (S := S5000x128) hz, View.ld_unit_zero (S := S5000x1) hz, View.ld_unit_zero (S := S128x128) hz,
    View.ld_unit_zero (S := S1x128) hz]

/-- A later tile: the column sums of the squares, over what the accumulator held. -/
theorem out_B_5 (c : Dev nD) (i : grid0.Coords) (a1 : Memref sig .tc .vmem S5000x128 .f32) (h1 : a1.IsWhole) (a2 : Memref sig .tc .vmem S5000x1 .f32) (h2 : a2.IsWhole) (a3 : Memref sig .tc .vmem S128x128 .f32) (h3 : a3.IsWhole) (a4 : Memref sig .tc .vmem S5000x128 .f32) (h4 : a4.IsWhole) (a5 : Memref sig .tc .vmem S1x128 .f32) (h5 : a5.IsWhole) (a6 : Memref sig .tc .vmem S1x128 .f32) (h6 : a6.IsWhole) (hc : ¬cond0_0 i)
    (x0 : Vec F S5000x128 .f32) (x1 : Vec F S5000x1 .f32) (x2 : Vec F S128x128 .f32) (xo4 xo5 : Vec F S1x128 .f32) :
    out0_B_5 c i a1 h1 a2 h2 a3 h3 a4 h4 a5 h5 a6 h6 hc x0 x1 x2 xo4 xo5 = k0_pay5 x1 x0 x2 xo5 := by
  unfold out0_B_5
  rw [View.read_writes_eq_canon _ _ _ (cover0_B_5 c i a1 h1 a2 h2 a3 h3 a4 h4 a5 h5 a6 h6 hc x0 x1 x2 xo4 xo5)]
  unfold kernelRun0_B
  dsimp only
  rw [View.canon_unit_zero hz]
  simp only [View.readAt_eq_ld, h1.read_unread, h2.read_unread, h3.read_unread, h5.read_unread, h6.read_unread,
    View.ld_unit_zero (S := S5000x128) hz, View.ld_unit_zero (S := S5000x1) hz, View.ld_unit_zero (S := S128x128) hz,
    View.ld_unit_zero (S := S1x128) hz]

end Cert.KernelIdeal.Pieces

end
-- ==== Proof.KReg0.lean ====
/-
  The first kernel region: ten tiles of 5000 rows.

  At a tile the body scales each aggregated row by the reciprocal square root of its in-degree, multiplies by the
  weights, and writes the projected tile; it also adds the tile's column sums, and the column sums of the squares, to
  two one-row accumulators that start at zero on the first tile. So after the last tile the projected array holds
  every row's projection, and the two accumulators hold the column sums over all 50000 rows.
-/
import proofs.«125863_j61847529063045_1_alg».proof.Proof.Gen.KernelIdeal.Frame
import proofs.«125863_j61847529063045_1_alg».proof.Proof.Spec
import proofs.«125863_j61847529063045_1_alg».proof.Proof.LibDense
import proofs.«125863_j61847529063045_1_alg».proof.Proof.KPay
import proofs.«125863_j61847529063045_1_alg».proof.Proof.KPieces
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen

variable (V : (c : Dev nD) → (b : Ref sig .tc) → Buf (Elt Ideal) ((c : Thread nD τ).loc b))

/-- Row `r` of the projection, from the three arrays the region reads: the aggregated features, the in-degrees (one
    column) and the weights. -/
def P (c : Dev nD) (r : Fin 50000) (j : Fin 128) : EReal :=
  Cert.Spec.proj (fun k => (V c main_v22 : Vec Ideal S50000x128 .f32) (ix2 r k))
    ((V c main_v23 : Vec Ideal S50000x1 .f32) (ix2 r (0 : Fin 1)))
    (fun k j => (V c main_arg1 : Vec Ideal S128x128 .f32) (ix2 k j)) j

/-! ## The blocks a tile reads -/

/-- The grid's ten points are the ten tiles. -/
def tile (t : Fin cfg0.N) : Fin 10 := ⟨t.val, lt_of_lt_of_eq t.isLt N_0⟩

/-- Where each window's block sits at a point: the two row-tiled inputs and the projected output at block (t, 0), the
    weights and the two accumulators at block (0, 0). -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The three arrays the region reads, and the three blocks a tile loads, at their literal shapes. -/
abbrev feat (c : Dev nD) : Vec Ideal S50000x128 .f32 := V c main_v22
abbrev deg (c : Dev nD) : Vec Ideal S50000x1 .f32 := V c main_v23
abbrev wts (c : Dev nD) : Vec Ideal S128x128 .f32 := V c main_arg1
abbrev featBlk (c : Dev nD) (t : Fin cfg0.N) : Vec Ideal S5000x128 .f32 := iblk0 V c 0 t
abbrev degBlk (c : Dev nD) (t : Fin cfg0.N) : Vec Ideal S5000x1 .f32 := iblk0 V c 1 t
abbrev wtsBlk (c : Dev nD) (t : Fin cfg0.N) : Vec Ideal S128x128 .f32 := iblk0 V c 2 t

/-- Row `p` of tile `t`'s feature block is row `5000 t + p` of the features. -/
theorem featBlk_apply (c : Dev nD) (t : Fin cfg0.N) (p : Fin 5000) (k : Fin 128) :
    featBlk V c t (ix2 p k) = feat V c (ix2 (Cert.Reals.tileRow (tile t) p) k) := by
  obtain ⟨e0, e1, -⟩ := blockIndex t
  show V c main_v22 (((cfg0.win 0).blk t).view.emb (ix2 p k)) = V c main_v22 (ix2 (Cert.Reals.tileRow (tile t) p) k)
  congr 1
  funext a; apply Fin.ext
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- Row `p` of tile `t`'s degree block is row `5000 t + p` of the degrees. -/
theorem degBlk_apply (c : Dev nD) (t : Fin cfg0.N) (p : Fin 5000) :
    degBlk V c t (ix2 p (0 : Fin 1)) = deg V c (ix2 (Cert.Reals.tileRow (tile t) p) (0 : Fin 1)) := by
  obtain ⟨-, -, e2, e3, -⟩ := blockIndex t
  show V c main_v23 (((cfg0.win 1).blk t).view.emb (ix2 p (0 : Fin 1))) = V c main_v23 (ix2 (Cert.Reals.tileRow (tile t) p) (0 : Fin 1))
  congr 1
  funext a; apply Fin.ext
  match a with
  | ⟨0, _⟩ => show win0_1.index t (0 : Fin 2) * 5000 + 1 * p.val = 5000 * t.val + p.val; rw [e2]; omega
  | ⟨1, _⟩ => show win0_1.index t (1 : Fin 2) * 1 + 1 * 0 = 0; rw [e3]

/-- Every tile's weight block is the whole weight matrix. -/
theorem wtsBlk_apply (c : Dev nD) (t : Fin cfg0.N) (k j : Fin 128) :
    wtsBlk V c t (ix2 k j) = wts V c (ix2 k j) := by
  obtain ⟨-, -, -, -, e4, e5, -⟩ := blockIndex t
  show V c main_arg1 (((cfg0.win 2).blk t).view.emb (ix2 k j)) = V c main_arg1 (ix2 k j)
  congr 1
  funext a; apply Fin.ext
  match a with
  | ⟨0, _⟩ => show win0_2.index t (0 : Fin 2) * 128 + 1 * k.val = k.val; rw [e4]; omega
  | ⟨1, _⟩ => show win0_2.index t (1 : Fin 2) * 128 + 1 * j.val = j.val; rw [e5]; omega

/-- So the tile the body stores at point `t` is the projection of the tile's rows. -/
theorem proj_tile (c : Dev nD) (t : Fin cfg0.N) (p : Fin 5000) (j : Fin 128) :
    k0_pay3 (degBlk V c t) (featBlk V c t) (wtsBlk V c t) (ix2 p j) = P V c (Cert.Reals.tileRow (tile t) p) j := by
  refine (Pay.pay3_apply (degBlk V c t) (featBlk V c t) (wtsBlk V c t) p j).trans ?_
  have e1 : (fun k => featBlk V c t (ix2 p k)) = fun k => feat V c (ix2 (Cert.Reals.tileRow (tile t) p) k) :=
    funext fun k => featBlk_apply V c t p k
  have e3 : (fun k j => wtsBlk V c t (ix2 k j)) = fun k j => wts V c (ix2 k j) :=
    funext fun k => funext fun j => wtsBlk_apply V c t k j
  rw [e1, degBlk_apply V c t p, e3]
  rfl

/-! ## What a point leaves, at the point's own blocks

The first tile stores the projected tile and adds its column sums to the cleared accumulators; a later tile does the
same over what the accumulators held before it. -/

/-- First tile: the projected tile. -/
theorem first3 (c : Dev nD) (t : Fin cfg0.N) (hc : cond0_0 (grid0.coords t)) :
    out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) hc (iblk0 V c 0 t) (iblk0 V c 1 t) (iblk0 V c 2 t)
      = k0_pay3 (degBlk V c t) (featBlk V c t) (wtsBlk V c t) :=
  Pieces.out_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) hc (featBlk V c t) (degBlk V c t) (wtsBlk V c t)

/-- First tile: the column sums over the cleared accumulator. -/
theorem first4 (c : Dev nD) (t : Fin cfg0.N) (hc : cond0_0 (grid0.coords t)) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) hc (iblk0 V c 0 t) (iblk0 V c 1 t) (iblk0 V c 2 t)
      = k0_pay4 (degBlk V c t) (featBlk V c t) (wtsBlk V c t) (k0_pay1 (F := Ideal)) :=
  Pieces.out_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) hc (featBlk V c t) (degBlk V c t) (wtsBlk V c t)

/-- First tile: the column sums of the squares over the cleared accumulator. -/
theorem first5 (c : Dev nD) (t : Fin cfg0.N) (hc : cond0_0 (grid0.coords t)) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) hc (iblk0 V c 0 t) (iblk0 V c 1 t) (iblk0 V c 2 t)
      = k0_pay5 (degBlk V c t) (featBlk V c t) (wtsBlk V c t) (k0_pay2 (F := Ideal)) :=
  Pieces.out_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) hc (featBlk V c t) (degBlk V c t) (wtsBlk V c t)

/-- A later tile: the projected tile. -/
theorem later3 (c : Dev nD) (t : Fin cfg0.N) (hc : ¬cond0_0 (grid0.coords t)) (xo4 xo5 : Vec Ideal S1x128 .f32) :
    out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) hc (iblk0 V c 0 t) (iblk0 V c 1 t) (iblk0 V c 2 t) xo4 xo5
      = k0_pay3 (degBlk V c t) (featBlk V c t) (wtsBlk V c t) :=
  Pieces.out_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) hc (featBlk V c t) (degBlk V c t) (wtsBlk V c t) xo4 xo5

/-- A later tile: the column sums added to what the accumulator held. -/
theorem later4 (c : Dev nD) (t : Fin cfg0.N) (hc : ¬cond0_0 (grid0.coords t)) (xo4 xo5 : Vec Ideal S1x128 .f32) :
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) hc (iblk0 V c 0 t) (iblk0 V c 1 t) (iblk0 V c 2 t) xo4 xo5
      = k0_pay4 (degBlk V c t) (featBlk V c t) (wtsBlk V c t) xo4 :=
  Pieces.out_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) hc (featBlk V c t) (degBlk V c t) (wtsBlk V c t) xo4 xo5

/-- A later tile: the column sums of the squares added to what the accumulator held. -/
theorem later5 (c : Dev nD) (t : Fin cfg0.N) (hc : ¬cond0_0 (grid0.coords t)) (xo4 xo5 : Vec Ideal S1x128 .f32) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) hc (iblk0 V c 0 t) (iblk0 V c 1 t) (iblk0 V c 2 t) xo4 xo5
      = k0_pay5 (degBlk V c t) (featBlk V c t) (wtsBlk V c t) xo5 :=
  Pieces.out_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) hc (featBlk V c t) (degBlk V c t) (wtsBlk V c t) xo4 xo5

/-! ## The running sums -/

/-- The sum of `f` over the rows of tile `s` (zero past the last tile). -/
def tileSum (f : Fin 50000 → EReal) (s : ℕ) : EReal :=
  if h : s < 10 then ∑ p : Fin 5000, f (Cert.Reals.tileRow ⟨s, h⟩ p) else 0

/-- The ten tiles' sums add up to the sum over all rows. -/
theorem tileSum_total (f : Fin 50000 → EReal) : ∑ s ∈ Finset.range 10, tileSum f s = ∑ r : Fin 50000, f r := by
  rw [Cert.Reals.sum_rows_eq_sum_tiles, ← Fin.sum_univ_eq_sum_range]
  refine Finset.sum_congr rfl fun t _ => ?_
  unfold tileSum
  rw [dif_pos t.isLt]

/-- After point `n` the stored tile is the projection of tile `n`'s rows, and the two accumulators hold the column sums,
    and the column sums of the squares, over the rows of tiles `0 … n`: by induction on the point, the first tile
    starting from zero and each later tile adding its own rows' sum. -/
theorem outs_eq (c : Dev nD) : ∀ (n : ℕ) (h : n < cfg0.N),
    (∀ (p : Fin 5000) (j : Fin 128), (outsAt0 V c n h).1 (ix2 p j) = P V c (Cert.Reals.tileRow (tile ⟨n, h⟩) p) j)
    ∧ (∀ j : Fin 128, (outsAt0 V c n h).2.1 (ix2 (0 : Fin 1) j)
        = ∑ s ∈ Finset.range (n + 1), tileSum (fun r => P V c r j) s)
    ∧ (∀ j : Fin 128, (outsAt0 V c n h).2.2 (ix2 (0 : Fin 1) j)
        = ∑ s ∈ Finset.range (n + 1), tileSum (fun r => P V c r j * P V c r j) s)
  | 0, h => by
    have hN : cfg0.N = 10 := N_0
    rw [outsAt0_A V c ⟨0, h⟩ rfl]
    dsimp only
    refine ⟨fun p j => ?_, fun j => ?_, fun j => ?_⟩
    · refine (congrFun (first3 V c ⟨0, h⟩ ((hcond0_0 ⟨0, h⟩).mpr rfl)) (ix2 p j)).trans ?_
      exact proj_tile V c ⟨0, h⟩ p j
    · refine (congrFun (first4 V c ⟨0, h⟩ ((hcond0_0 ⟨0, h⟩).mpr rfl)) (ix2 (0 : Fin 1) j)).trans ?_
      refine (Pay.pay4_apply (degBlk V c ⟨0, h⟩) (featBlk V c ⟨0, h⟩) (wtsBlk V c ⟨0, h⟩) (k0_pay1 (F := Ideal)) j).trans ?_
      rw [Pay.pay1_apply j, zero_add, Finset.sum_range_one]
      unfold tileSum
      rw [dif_pos (by omega : 0 < 10)]
      exact Finset.sum_congr rfl fun p _ => proj_tile V c ⟨0, h⟩ p j
    · refine (congrFun (first5 V c ⟨0, h⟩ ((hcond0_0 ⟨0, h⟩).mpr rfl)) (ix2 (0 : Fin 1) j)).trans ?_
      refine (Pay.pay5_apply (degBlk V c ⟨0, h⟩) (featBlk V c ⟨0, h⟩) (wtsBlk V c ⟨0, h⟩) (k0_pay2 (F := Ideal)) j).trans ?_
      rw [Pay.pay2_apply j, zero_add, Finset.sum_range_one]
      unfold tileSum
      rw [dif_pos (by omega : 0 < 10)]
      exact Finset.sum_congr rfl fun p _ => by rw [proj_tile V c ⟨0, h⟩ p j]; rfl
  | n + 1, h => by
    have hN : cfg0.N = 10 := N_0
    have hB : ¬(⟨n + 1, h⟩ : Fin cfg0.N).val % 10 = 0 := by dsimp only; omega
    have hlt : n + 1 < 10 := by omega
    obtain ⟨-, ih4, ih5⟩ := outs_eq c n (Nat.lt_of_succ_lt h)
    rw [outsAt0_B V c ⟨n + 1, h⟩ hB]
    dsimp only
    refine ⟨fun p j => ?_, fun j => ?_, fun j => ?_⟩
    · refine (congrFun (later3 V c ⟨n + 1, h⟩ (fun hh => hB ((hcond0_0 ⟨n + 1, h⟩).mp hh))
        (outsAt0 V c n (Nat.lt_of_succ_lt h)).2.1 (outsAt0 V c n (Nat.lt_of_succ_lt h)).2.2) (ix2 p j)).trans ?_
      exact proj_tile V c ⟨n + 1, h⟩ p j
    · refine (congrFun (later4 V c ⟨n + 1, h⟩ (fun hh => hB ((hcond0_0 ⟨n + 1, h⟩).mp hh))
        (outsAt0 V c n (Nat.lt_of_succ_lt h)).2.1 (outsAt0 V c n (Nat.lt_of_succ_lt h)).2.2) (ix2 (0 : Fin 1) j)).trans ?_
      refine (Pay.pay4_apply (degBlk V c ⟨n + 1, h⟩) (featBlk V c ⟨n + 1, h⟩) (wtsBlk V c ⟨n + 1, h⟩)
        (outsAt0 V c n (Nat.lt_of_succ_lt h)).2.1 j).trans ?_
      rw [ih4 j, Finset.sum_range_succ _ (n + 1)]
      congr 1
      unfold tileSum
      rw [dif_pos hlt]
      exact Finset.sum_congr rfl fun p _ => proj_tile V c ⟨n + 1, h⟩ p j
    · refine (congrFun (later5 V c ⟨n + 1, h⟩ (fun hh => hB ((hcond0_0 ⟨n + 1, h⟩).mp hh))
        (outsAt0 V c n (Nat.lt_of_succ_lt h)).2.1 (outsAt0 V c n (Nat.lt_of_succ_lt h)).2.2) (ix2 (0 : Fin 1) j)).trans ?_
      refine (Pay.pay5_apply (degBlk V c ⟨n + 1, h⟩) (featBlk V c ⟨n + 1, h⟩) (wtsBlk V c ⟨n + 1, h⟩)
        (outsAt0 V c n (Nat.lt_of_succ_lt h)).2.2 j).trans ?_
      rw [ih5 j, Finset.sum_range_succ _ (n + 1)]
      congr 1
      unfold tileSum
      rw [dif_pos hlt]
      exact Finset.sum_congr rfl fun p _ => by rw [proj_tile V c ⟨n + 1, h⟩ p j]; rfl

/-! ## The two accumulators: only the last point writes back, and its block is the whole row -/

/-- The last point. -/
abbrev last : Fin cfg0.N := ⟨9, by rw [show cfg0.N = 10 from N_0]; decide⟩

/-- What the accumulators hold after the last point. -/
abbrev sums (c : Dev nD) : Buf (Elt Ideal) ((c : Thread nD τ).loc main_v24_1) := (outsAt0 V c last.val last.isLt).2.1
abbrev sqSums (c : Dev nD) : Buf (Elt Ideal) ((c : Thread nD τ).loc main_v24_2) := (outsAt0 V c last.val last.isLt).2.2

/-- The one write-back of the column sums, at the last point, writes the whole row. -/
theorem flushed4_eq (c : Dev nD) (t : Fin cfg0.N) (hf : (cfg0.win 4).flush t = true) :
    (dat0 V c).flushed 4 t = ((cfg0.win 4).blk t).view.read (Elt Ideal) (sums V c) := by
  have hN : cfg0.N = 10 := N_0
  have h9 : t.val = 9 := by have := (flush0_4 t).mp hf; have := t.isLt; omega
  obtain rfl : t = last := Fin.ext h9
  obtain ⟨-, -, -, -, -, -, -, -, e8, e9, -⟩ := blockIndex last
  show (cfg0.win 4).cut (grid0.coords last) ((dat0 V c).after 4 last) = _
  rw [after0_4]
  have hz : (fun a => win0_4.index last a * main_v24_1.ty.shape.size a) = fun _ => 0 := funext fun a => by
    match a with
    | ⟨0, _⟩ => show win0_4.index last (0 : Fin 2) * 1 = 0; rw [e8]
    | ⟨1, _⟩ => show win0_4.index last (1 : Fin 2) * 128 = 0; rw [e9]
  exact (Memref.read_access_unit_zero (Elt Ideal) main_v24_1 hz (fun a => by rw [congrFun hz a]; simp) (sums V c)).symm

/-- The one write-back of the column sums of the squares, at the last point, writes the whole row. -/
theorem flushed5_eq (c : Dev nD) (t : Fin cfg0.N) (hf : (cfg0.win 5).flush t = true) :
    (dat0 V c).flushed 5 t = ((cfg0.win 5).blk t).view.read (Elt Ideal) (sqSums V c) := by
  have hN : cfg0.N = 10 := N_0
  have h9 : t.val = 9 := by have := (flush0_5 t).mp hf; have := t.isLt; omega
  obtain rfl : t = last := Fin.ext h9
  obtain ⟨-, -, -, -, -, -, -, -, -, -, e10, e11⟩ := blockIndex last
  show (cfg0.win 5).cut (grid0.coords last) ((dat0 V c).after 5 last) = _
  rw [after0_5]
  have hz : (fun a => win0_5.index last a * main_v24_2.ty.shape.size a) = fun _ => 0 := funext fun a => by
    match a with
    | ⟨0, _⟩ => show win0_5.index last (0 : Fin 2) * 1 = 0; rw [e10]
    | ⟨1, _⟩ => show win0_5.index last (1 : Fin 2) * 128 = 0; rw [e11]
  exact (Memref.read_access_unit_zero (Elt Ideal) main_v24_2 hz (fun a => by rw [congrFun hz a]; simp) (sqSums V c)).symm

/-- The last point's block of a one-row accumulator is the whole row, so the array ends at what that point left. -/
theorem final4 (c : Dev nD) : (dat0 V c).arrAt 4 cfg0.N = sums V c :=
  (dat0 V c).arrAt_eq_of_cover 4 (sums V c) (flushed4_eq V c) fun i =>
    ⟨last, (flush0_4 last).mpr rfl, by
      obtain ⟨-, -, -, -, -, -, -, -, e8, e9, -⟩ := blockIndex last
      show i ∈ ((View.whole main_v24_1).slice (win0_4.rect last)).set
      rw [View.set_slice_whole, Rect.mem_set_unit]
      intro a
      have h0 : (i 0 : Nat) < 1 := (i 0).isLt
      have h1 : (i 1 : Nat) < 128 := (i 1).isLt
      match a with
      | ⟨0, _⟩ => show win0_4.index last (0 : Fin 2) * 1 ≤ (i 0 : Nat) ∧ (i 0 : Nat) < win0_4.index last (0 : Fin 2) * 1 + 1
                  rw [e8]; omega
      | ⟨1, _⟩ => show win0_4.index last (1 : Fin 2) * 128 ≤ (i 1 : Nat) ∧ (i 1 : Nat) < win0_4.index last (1 : Fin 2) * 128 + 128
                  rw [e9]; omega⟩

/-- The same for the column sums of the squares. -/
theorem final5 (c : Dev nD) : (dat0 V c).arrAt 5 cfg0.N = sqSums V c :=
  (dat0 V c).arrAt_eq_of_cover 5 (sqSums V c) (flushed5_eq V c) fun i =>
    ⟨last, (flush0_5 last).mpr rfl, by
      obtain ⟨-, -, -, -, -, -, -, -, -, -, e10, e11⟩ := blockIndex last
      show i ∈ ((View.whole main_v24_2).slice (win0_5.rect last)).set
      rw [View.set_slice_whole, Rect.mem_set_unit]
      intro a
      have h0 : (i 0 : Nat) < 1 := (i 0).isLt
      have h1 : (i 1 : Nat) < 128 := (i 1).isLt
      match a with
      | ⟨0, _⟩ => show win0_5.index last (0 : Fin 2) * 1 ≤ (i 0 : Nat) ∧ (i 0 : Nat) < win0_5.index last (0 : Fin 2) * 1 + 1
                  rw [e10]; omega
      | ⟨1, _⟩ => show win0_5.index last (1 : Fin 2) * 128 ≤ (i 1 : Nat) ∧ (i 1 : Nat) < win0_5.index last (1 : Fin 2) * 128 + 128
                  rw [e11]; omega⟩

/-! ## The projected array: every point writes back its own tile -/

/-- The whole projected array, row by row. -/
abbrev projArr (c : Dev nD) : Vec Ideal S50000x128 .f32 := fun i => P V c (i 0) (i 1)

/-- The tile a point leaves is that point's block of the projected array. -/
theorem tile_eq (c : Dev nD) (t : Fin cfg0.N) (y : S5000x128.Idx) :
    (outsAt0 V c t.val t.isLt).1 y = projArr V c (((cfg0.win 3).blk t).view.emb y) := by
  obtain ⟨p, k, rfl⟩ : ∃ (p : Fin 5000) (k : Fin 128), y = ix2 p k := ⟨y 0, y 1, eq_ix2 y⟩
  obtain ⟨-, -, -, -, -, -, e6, e7, -⟩ := blockIndex t
  refine ((outs_eq V c t.val t.isLt).1 p k).trans ?_
  show P V c (Cert.Reals.tileRow (tile t) p) k
    = P V c (((cfg0.win 3).blk t).view.emb (ix2 p k) 0) (((cfg0.win 3).blk t).view.emb (ix2 p k) 1)
  congr 1
  · apply Fin.ext
    show 5000 * t.val + p.val = win0_3.index t (0 : Fin 2) * 5000 + 1 * p.val
    rw [e6]; omega
  · apply Fin.ext
    show k.val = win0_3.index t (1 : Fin 2) * 128 + 1 * k.val
    rw [e7]; omega

/-- Every point writes back its own tile of the projected array. -/
theorem flushed3_eq (c : Dev nD) (t : Fin cfg0.N) :
    (dat0 V c).flushed 3 t = ((cfg0.win 3).blk t).view.read (Elt Ideal) (projArr V c) := by
  show (cfg0.win 3).cut (grid0.coords t) ((dat0 V c).after 3 t) = _
  rw [after0_3]
  exact funext fun y => tile_eq V c t y

/-- Row `r` lies in the block of point `r / 5000`, so the ten tiles cover the array. -/
theorem final3 (c : Dev nD) : (dat0 V c).arrAt 3 cfg0.N = projArr V c :=
  (dat0 V c).arrAt_eq_of_cover 3 (projArr V c) (fun t _ => flushed3_eq V c t) fun i => by
    have h0 : (i 0 : Nat) < 50000 := (i 0).isLt
    have h1 : (i 1 : Nat) < 128 := (i 1).isLt
    have hN : cfg0.N = 10 := N_0
    obtain ⟨t, ht⟩ : ∃ t : Fin cfg0.N, t.val = (i 0 : Nat) / 5000 := ⟨⟨(i 0 : Nat) / 5000, by omega⟩, rfl⟩
    obtain ⟨-, -, -, -, -, -, e6, e7, -⟩ := blockIndex t
    refine ⟨t, flush0_3 t, ?_⟩
    show i ∈ ((View.whole main_v24_0).slice (win0_3.rect t)).set
    rw [View.set_slice_whole, Rect.mem_set_unit]
    intro a
    match a with
    | ⟨0, _⟩ => show win0_3.index t (0 : Fin 2) * 5000 ≤ (i 0 : Nat) ∧ (i 0 : Nat) < win0_3.index t (0 : Fin 2) * 5000 + 5000
                rw [e6]; omega
    | ⟨1, _⟩ => show win0_3.index t (1 : Fin 2) * 128 ≤ (i 1 : Nat) ∧ (i 1 : Nat) < win0_3.index t (1 : Fin 2) * 128 + 128
                rw [e7]; omega

/-! ## The three arrays after the region -/

/-- The projected array after the region. -/
theorem arr3 (c : Dev nD) (r : Fin 50000) (j : Fin 128) :
    ((dat0 V c).arrAt 3 cfg0.N : Vec Ideal S50000x128 .f32) (ix2 r j) = P V c r j :=
  congrFun (final3 V c) (ix2 r j)

/-- The column sums after the region. -/
theorem arr4 (c : Dev nD) (j : Fin 128) :
    ((dat0 V c).arrAt 4 cfg0.N : Vec Ideal S1x128 .f32) (ix2 (0 : Fin 1) j) = ∑ r : Fin 50000, P V c r j := by
  refine (congrFun (final4 V c) (ix2 (0 : Fin 1) j)).trans ?_
  refine ((outs_eq V c last.val last.isLt).2.1 j).trans ?_
  exact tileSum_total fun r => P V c r j

/-- The column sums of the squares after the region. -/
theorem arr5 (c : Dev nD) (j : Fin 128) :
    ((dat0 V c).arrAt 5 cfg0.N : Vec Ideal S1x128 .f32) (ix2 (0 : Fin 1) j) = ∑ r : Fin 50000, P V c r j * P V c r j := by
  refine (congrFun (final5 V c) (ix2 (0 : Fin 1) j)).trans ?_
  refine ((outs_eq V c last.val last.isLt).2.2 j).trans ?_
  exact tileSum_total fun r => P V c r j * P V c r j

end Cert.KernelIdeal.Reg0

end
-- ==== Proof.KReg1.lean ====
/-
  The second kernel region: each tile of 5000 projected rows is normalised with the column statistics, scaled and
  shifted, clipped at zero, and divided row by row by the larger of the row's norm and the floor. The tiles fill the
  result array, so every row of the result is that function of the same row of the projected array.
-/
import proofs.«125863_j61847529063045_1_alg».proof.Proof.Gen.KernelIdeal.Frame
import proofs.«125863_j61847529063045_1_alg».proof.Proof.Spec
import proofs.«125863_j61847529063045_1_alg».proof.Proof.LibDense
import proofs.«125863_j61847529063045_1_alg».proof.Proof.KPay
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen

variable (V : (c : Dev nD) → (b : Ref sig .tc) → Buf (Elt Ideal) ((c : Thread nD τ).loc b))

/-- The offsets of a whole-buffer access are zero. -/
theorem zeros : (![0, 0] : Fin 2 → Nat) = fun _ => 0 := funext fun a => by fin_cases a <;> rfl

/-- Every row of the result as a function of the same row of the projected array and the four one-row arrays. -/
def rowFn (A : Vec Ideal S50000x128 .f32) (a1 a2 a3 a4 : Vec Ideal S1x128 .f32) : Vec Ideal S50000x128 .f32 :=
  fun i => Cert.Spec.outRow (fun j => A (ix2 (i 0 : Fin 50000) j)) (fun j => a1 (ix2 (0 : Fin 1) j))
    (fun j => a2 (ix2 (0 : Fin 1) j)) (fun j => a3 (ix2 (0 : Fin 1) j)) (fun j => a4 (ix2 (0 : Fin 1) j)) (i 1 : Fin 128)

/-- The finished row depends on its five arguments and the column only through their values. -/
theorem outRow_congr {x x' mu mu' var var' g g' b b' : Fin 128 → EReal} {j j' : Fin 128}
    (hx : ∀ k, x k = x' k) (hmu : ∀ k, mu k = mu' k) (hvar : ∀ k, var k = var' k) (hg : ∀ k, g k = g' k)
    (hb : ∀ k, b k = b' k) (hj : j = j') :
    Cert.Spec.outRow x mu var g b j = Cert.Spec.outRow x' mu' var' g' b' j' := by
  obtain rfl : x = x' := funext hx
  obtain rfl : mu = mu' := funext hmu
  obtain rfl : var = var' := funext hvar
  obtain rfl : g = g' := funext hg
  obtain rfl : b = b' := funext hb
  subst hj
  rfl

/-- The stored tile at an index, by its coordinates. -/
theorem tile_apply (b0 : Vec Ideal S5000x128 .f32) (b1 b2 b3 b4 : Vec Ideal S1x128 .f32) (y : S5000x128.Idx) :
    k1_pay1 b0 b1 b2 b3 b4 y
      = Cert.Spec.outRow (fun j => b0 (ix2 (y 0 : Fin 5000) j)) (fun j => b1 (ix2 (0 : Fin 1) j))
          (fun j => b2 (ix2 (0 : Fin 1) j)) (fun j => b3 (ix2 (0 : Fin 1) j)) (fun j => b4 (ix2 (0 : Fin 1) j)) (y 1 : Fin 128) := by
  obtain ⟨p, q, rfl⟩ : ∃ (p : Fin 5000) (q : Fin 128), y = ix2 p q := ⟨y 0, y 1, eq_ix2 y⟩
  exact Pay.pay1_fin_apply b0 b1 b2 b3 b4 p q

/-- The index maps over the ten grid points: the tiled windows sit at block (t, 0), the one-row windows at (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Tile t of the projected array: its row p is row 5000 t + p of the array. -/
theorem blk0_apply (c : Dev nD) (t : Fin cfg1.N) (p : Fin 5000) (k : Fin 128) (r : Fin 50000)
    (hr : r.val = 5000 * t.val + p.val) :
    (iblk1 V c 0 t : Vec Ideal S5000x128 .f32) (ix2 p k) = (V c main_v24_0 : Vec Ideal S50000x128 .f32) (ix2 r k) := by
  obtain ⟨e0, e1, -⟩ := idx_facts t
  unfold iblk1
  rw [View.read_apply]
  show V c main_v24_0 _ = V c main_v24_0 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- A one-row window's block is its whole array, at every point. -/
theorem blk1_apply (c : Dev nD) (t : Fin cfg1.N) (k : Fin 128) :
    (iblk1 V c 1 t : Vec Ideal S1x128 .f32) (ix2 (0 : Fin 1) k) = (V c main_v26 : Vec Ideal S1x128 .f32) (ix2 (0 : Fin 1) k) := by
  obtain ⟨-, -, e0, e1, -⟩ := idx_facts t
  unfold iblk1
  rw [View.read_apply]
  show V c main_v26 _ = V c main_v26 _
  congr 1
  funext a
  apply Fin.ext
  match a with
  | ⟨0, _⟩ => show win1_1.index t (0 : Fin 2) * 1 + 1 * 0 = 0; rw [e0]
  | ⟨1, _⟩ => show win1_1.index t (1 : Fin 2) * 128 + 1 * k.val = k.val; rw [e1]; omega

theorem blk2_apply (c : Dev nD) (t : Fin cfg1.N) (k : Fin 128) :
    (iblk1 V c 2 t : Vec Ideal S1x128 .f32) (ix2 (0 : Fin 1) k) = (V c main_v30 : Vec Ideal S1x128 .f32) (ix2 (0 : Fin 1) k) := by
  obtain ⟨-, -, -, -, e0, e1, -⟩ := idx_facts t
  unfold iblk1
  rw [View.read_apply]
  show V c main_v30 _ = V c main_v30 _
  congr 1
  funext a
  apply Fin.ext
  match a with
  | ⟨0, _⟩ => show win1_2.index t (0 : Fin 2) * 1 + 1 * 0 = 0; rw [e0]
  | ⟨1, _⟩ => show win1_2.index t (1 : Fin 2) * 128 + 1 * k.val = k.val; rw [e1]; omega

theorem blk3_apply (c : Dev nD) (t : Fin cfg1.N) (k : Fin 128) :
    (iblk1 V c 3 t : Vec Ideal S1x128 .f32) (ix2 (0 : Fin 1) k) = (V c main_v31 : Vec Ideal S1x128 .f32) (ix2 (0 : Fin 1) k) := by
  obtain ⟨-, -, -, -, -, -, e0, e1, -⟩ := idx_facts t
  unfold iblk1
  rw [View.read_apply]
  show V c main_v31 _ = V c main_v31 _
  congr 1
  funext a
  apply Fin.ext
  match a with
  | ⟨0, _⟩ => show win1_3.index t (0 : Fin 2) * 1 + 1 * 0 = 0; rw [e0]
  | ⟨1, _⟩ => show win1_3.index t (1 : Fin 2) * 128 + 1 * k.val = k.val; rw [e1]; omega

theorem blk4_apply (c : Dev nD) (t : Fin cfg1.N) (k : Fin 128) :
    (iblk1 V c 4 t : Vec Ideal S1x128 .f32) (ix2 (0 : Fin 1) k) = (V c main_v32 : Vec Ideal S1x128 .f32) (ix2 (0 : Fin 1) k) := by
  obtain ⟨-, -, -, -, -, -, -, -, e0, e1, -⟩ := idx_facts t
  unfold iblk1
  rw [View.read_apply]
  show V c main_v32 _ = V c main_v32 _
  congr 1
  funext a
  apply Fin.ext
  match a with
  | ⟨0, _⟩ => show win1_4.index t (0 : Fin 2) * 1 + 1 * 0 = 0; rw [e0]
  | ⟨1, _⟩ => show win1_4.index t (1 : Fin 2) * 128 + 1 * k.val = k.val; rw [e1]; omega

/-- Where an element of the result's tile t sits in the result array: row 5000 t + its row, the same column. -/
theorem out_emb (t : Fin cfg1.N) (y : S5000x128.Idx) :
    ((((cfg1.win 5).blk t).view.emb y) 0).val = 5000 * t.val + (y 0).val
      ∧ ((((cfg1.win 5).blk t).view.emb y) 1).val = (y 1).val := by
  obtain ⟨-, -, -, -, -, -, -, -, -, -, e0, e1⟩ := idx_facts t
  constructor
  · show win1_5.index t (0 : Fin 2) * 5000 + 1 * (y 0).val = _; rw [e0]; omega
  · show win1_5.index t (1 : Fin 2) * 128 + 1 * (y 1).val = _; rw [e1]; omega

/-- What point t writes back is tile t of the row function of the region-entry arrays. -/
theorem flushed_eq (c : Dev nD) (t : Fin cfg1.N) :
    (dat1 V c).flushed 5 t = ((cfg1.win 5).blk t).view.read (Elt Ideal)
      (rowFn (V c main_v24_0) (V c main_v26) (V c main_v30) (V c main_v31) (V c main_v32)) := by
  show (cfg1.win 5).cut (grid1.coords t) ((dat1 V c).after 5 t) = _
  rw [after1_5]
  unfold out1_5
  rw [View.canon_unit_zero zeros]
  simp only [View.ld_unit_zero (S := S5000x128) zeros, View.ld_unit_zero (S := S1x128) zeros]
  funext y
  show k1_pay1 (iblk1 V c 0 t) (iblk1 V c 1 t) (iblk1 V c 2 t) (iblk1 V c 3 t) (iblk1 V c 4 t) y
      = rowFn (V c main_v24_0) (V c main_v26) (V c main_v30) (V c main_v31) (V c main_v32) (((cfg1.win 5).blk t).view.emb y)
  refine (tile_apply _ _ _ _ _ y).trans ?_
  obtain ⟨h0, h1⟩ := out_emb t y
  exact outRow_congr (fun k => blk0_apply V c t _ k _ h0) (fun k => blk1_apply V c t k) (fun k => blk2_apply V c t k)
    (fun k => blk3_apply V c t k) (fun k => blk4_apply V c t k) (Fin.ext h1.symm)

/-- An index of the result array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v33).slice (win1_5.rect t)).set ↔ _
  rw [View.set_slice_whole, Rect.mem_set_unit]
  exact Iff.rfl

/-- Row r of the result array lies in the tile of point r / 5000, which writes back. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have ht : (i 0).val / 5000 < cfg1.N := by show (i 0).val / 5000 < 10; omega
  obtain ⟨-, -, -, -, -, -, -, -, -, -, e0, e1⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    rw [e1]; omega

/-- The result array after the region is the row function of the region-entry arrays. -/
theorem final (c : Dev nD) :
    (dat1 V c).arrAt 5 cfg1.N = rowFn (V c main_v24_0) (V c main_v26) (V c main_v30) (V c main_v31) (V c main_v32) :=
  (dat1 V c).arrAt_eq_of_cover 5 (rowFn (V c main_v24_0) (V c main_v26) (V c main_v30) (V c main_v31) (V c main_v32))
    (fun t _ => flushed_eq V c t) cover

/-- The result array after the region, row by row. -/
theorem arr5 (c : Dev nD) (r : Fin 50000) (j : Fin 128) :
    ((dat1 V c).arrAt 5 cfg1.N : Vec Ideal S50000x128 .f32) (ix2 r j)
      = Cert.Spec.outRow (fun j => (V c main_v24_0 : Vec Ideal S50000x128 .f32) (ix2 r j))
          (fun j => (V c main_v26 : Vec Ideal S1x128 .f32) (ix2 (0 : Fin 1) j))
          (fun j => (V c main_v30 : Vec Ideal S1x128 .f32) (ix2 (0 : Fin 1) j))
          (fun j => (V c main_v31 : Vec Ideal S1x128 .f32) (ix2 (0 : Fin 1) j))
          (fun j => (V c main_v32 : Vec Ideal S1x128 .f32) (ix2 (0 : Fin 1) j)) j :=
  congrFun (final V c) (ix2 r j)

end Cert.KernelIdeal.Reg1

end
-- ==== Proof.KHost.lean ====
/-
  The host operations around the two kernel regions.

  Before the first region the host builds the aggregated features and the clipped in-degrees from the inputs, by the
  same operations the reference applies; between the regions it divides the two accumulators by the batch size, forms
  the variance as the mean of the squares minus the square of the mean, and lays the scale and shift vectors out as
  one-row matrices.
-/
import proofs.«125863_j61847529063045_1_alg».proof.Proof.Gen.KernelIdeal.Frame
import proofs.«125863_j61847529063045_1_alg».proof.Proof.Spec
import proofs.«125863_j61847529063045_1_alg».proof.Proof.LibDense
import proofs.«125863_j61847529063045_1_alg».proof.Proof.Gen.ReferenceIdeal.Read
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Host

open Cert.KernelIdeal Cert.KernelIdeal.Gen

variable (m : (ℓ : Loc nD τ sig) → Buf (Elt Ideal) ℓ) (ρ : Dev nD → PrngReg)

/-! ## Between the regions -/

/-- A buffer the stretch between the regions does not write holds at the second region's entry what the first left. -/
theorem w7_arg2 (c : Dev nD) : W7 m ρ c (Proc.devRef .tc main_arg2) = W6 m ρ c (Proc.devRef .tc main_arg2) := by
  show StableHlo.after hostOps1 (W6 m ρ c) (Proc.devRef .tc main_arg2) = _
  after_results
theorem w7_arg3 (c : Dev nD) : W7 m ρ c (Proc.devRef .tc main_arg3) = W6 m ρ c (Proc.devRef .tc main_arg3) := by
  show StableHlo.after hostOps1 (W6 m ρ c) (Proc.devRef .tc main_arg3) = _
  after_results

/-- The scale and shift vectors are never written: at the first region's exit they are as launched. -/
theorem w6_arg2 (c : Dev nD) : W6 m ρ c (Proc.devRef .tc main_arg2) = m ((c : Thread nD τ).loc main_arg2) := by
  rw [← w7_arg2 m ρ c, ← W8_of_ne m ρ c main_arg2 (by decide)]
  exact W8_main_arg2 m ρ c
theorem w6_arg3 (c : Dev nD) : W6 m ρ c (Proc.devRef .tc main_arg3) = m ((c : Thread nD τ).loc main_arg3) := by
  rw [← w7_arg3 m ρ c, ← W8_of_ne m ρ c main_arg3 (by decide)]
  exact W8_main_arg3 m ρ c

/-- The batch size as a one-row matrix. -/
abbrev rowN : Vec Ideal S1x128 .f32 := broadcastInDim S1x128 ![] bcast_S_S1x128 (constant (F := Ideal) S_ .f32 0x47435000#32)

/-- The mean row is the first accumulator over the batch size. -/
theorem v26_eq (c : Dev nD) :
    (V7 m ρ c main_v26 : Vec Ideal S1x128 .f32)
      = (Host.divf (F := Ideal) (s := S1x128) (φ := .f32) (W6 m ρ c (Proc.devRef .tc main_v24_1) : Vec Ideal S1x128 .f32) rowN : Vec Ideal S1x128 .f32) := by
  show StableHlo.after hostOps1 (W6 m ρ c) (Proc.devRef .tc main_v26) = _
  after_results <;> rfl

/-- The variance row: the second accumulator over the batch size, minus the square of the mean row. -/
theorem v30_eq (c : Dev nD) :
    (V7 m ρ c main_v30 : Vec Ideal S1x128 .f32)
      = (subf (F := Ideal) (s := S1x128) (φ := .f32) (Host.divf (F := Ideal) (s := S1x128) (φ := .f32) (W6 m ρ c (Proc.devRef .tc main_v24_2) : Vec Ideal S1x128 .f32) rowN)
          (mulf (F := Ideal) (s := S1x128) (φ := .f32) (Host.divf (F := Ideal) (s := S1x128) (φ := .f32) (W6 m ρ c (Proc.devRef .tc main_v24_1) : Vec Ideal S1x128 .f32) rowN)
            (Host.divf (F := Ideal) (s := S1x128) (φ := .f32) (W6 m ρ c (Proc.devRef .tc main_v24_1) : Vec Ideal S1x128 .f32) rowN)) : Vec Ideal S1x128 .f32) := by
  show StableHlo.after hostOps1 (W6 m ρ c) (Proc.devRef .tc main_v30) = _
  after_results <;> rfl

/-- The projected array passes through the host stretch untouched. -/
theorem v7_proj (c : Dev nD) : V7 m ρ c main_v24_0 = (dat0 (V5 m ρ) c).arrAt 3 cfg0.N := by
  refine Eq.trans ?_ (W6_arr m ρ c 3)
  show StableHlo.after hostOps1 (W6 m ρ c) (Proc.devRef .tc main_v24_0) = _
  after_results

/-- Entry `j` of the mean row the second region reads. -/
def meanAt (c : Dev nD) (j : Fin 128) : EReal := (V7 m ρ c main_v26 : Vec Ideal S1x128 .f32) (ix2 (0 : Fin 1) j)

/-- The mean: the column sums over the batch size. -/
theorem v7_mean (c : Dev nD) (j : Fin 128) :
    meanAt m ρ c j
      = Ideal.div (((dat0 (V5 m ρ) c).arrAt 4 cfg0.N : Vec Ideal S1x128 .f32) (ix2 (0 : Fin 1) j)) Cert.Spec.cN := by
  unfold meanAt
  rw [v26_eq m ρ c, W6_arr m ρ c 4]
  rfl

/-- The variance: the mean of the squares minus the square of the mean. -/
theorem v7_var (c : Dev nD) (j : Fin 128) :
    (V7 m ρ c main_v30 : Vec Ideal S1x128 .f32) (ix2 (0 : Fin 1) j)
      = Ideal.div (((dat0 (V5 m ρ) c).arrAt 5 cfg0.N : Vec Ideal S1x128 .f32) (ix2 (0 : Fin 1) j)) Cert.Spec.cN
        - meanAt m ρ c j * meanAt m ρ c j := by
  unfold meanAt
  rw [v30_eq m ρ c, v26_eq m ρ c, W6_arr m ρ c 5]
  rfl

/-- The scale vector as a one-row matrix. -/
theorem v7_gamma (c : Dev nD) (j : Fin 128) :
    (V7 m ρ c main_v31 : Vec Ideal S1x128 .f32) (ix2 (0 : Fin 1) j) = (m ((c : Thread nD τ).loc main_arg2) : Vec Ideal S128 .f32) (ix1 j) := by
  have e : (V7 m ρ c main_v31 : Vec Ideal S1x128 .f32)
      = shapeCast S1x128 (W6 m ρ c (Proc.devRef .tc main_arg2) : Vec Ideal S128 .f32) shapeCasts_S128_S1x128 := by
    show StableHlo.after hostOps1 (W6 m ρ c) (Proc.devRef .tc main_v31) = _
    after_results
    rfl
  rw [e, w6_arg2 m ρ c]
  exact shapeCast_a_1a_apply _ _ 0 j

/-- The shift vector as a one-row matrix. -/
theorem v7_beta (c : Dev nD) (j : Fin 128) :
    (V7 m ρ c main_v32 : Vec Ideal S1x128 .f32) (ix2 (0 : Fin 1) j) = (m ((c : Thread nD τ).loc main_arg3) : Vec Ideal S128 .f32) (ix1 j) := by
  have e : (V7 m ρ c main_v32 : Vec Ideal S1x128 .f32)
      = shapeCast S1x128 (W6 m ρ c (Proc.devRef .tc main_arg3) : Vec Ideal S128 .f32) shapeCasts_S128_S1x128 := by
    show StableHlo.after hostOps1 (W6 m ρ c) (Proc.devRef .tc main_v32) = _
    after_results
    rfl
  rw [e, w6_arg3 m ρ c]
  exact shapeCast_a_1a_apply _ _ 0 j

/-! ## Before the first region -/

/-- A vector cast to a one-column matrix reads, at `(i, u)`, the vector at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

section AnyInstance

variable {F : FTy → Type} [FloatOps F] (mF : (ℓ : Loc nD τ sig) → Buf (Elt F) ℓ)

/-- At any float instance, the host operations before the first region compose, at the aggregated features' buffer, to
    the reference's term of the node features and the two edge lists: the two programs apply the same operations. -/
theorem v5_agg_any (c : Dev nD) :
    (V5 mF ρ c main_v22 : Vec F S50000x128 .f32)
      = Cert.ReferenceIdeal.Read.val_main_v22 (F := F) (mF ((c : Thread nD τ).loc main_arg0)) (mF ((c : Thread nD τ).loc main_arg4))
          (mF ((c : Thread nD τ).loc main_arg5)) := by
  show StableHlo.after hostOps0_4 (StableHlo.after hostOps0_3 (StableHlo.after hostOps0_2 (StableHlo.after hostOps0_1
    (StableHlo.after hostOps0 (W0 mF ρ c))))) (Proc.devRef .tc main_v22) = _
  after_results_simp
  rfl

/-- At any float instance, the in-degree column is the reference's clipped in-degree vector laid out as a column. -/
theorem v5_deg_any (c : Dev nD) :
    (V5 mF ρ c main_v23 : Vec F S50000x1 .f32)
      = shapeCast S50000x1 (Cert.ReferenceIdeal.Read.val_main_v8 (F := F) (mF ((c : Thread nD τ).loc main_arg5))) shapeCasts_S50000_S50000x1 := by
  show StableHlo.after hostOps0_4 (StableHlo.after hostOps0_3 (StableHlo.after hostOps0_2 (StableHlo.after hostOps0_1
    (StableHlo.after hostOps0 (W0 mF ρ c))))) (Proc.devRef .tc main_v23) = _
  after_results_simp
  rfl

/-- No host operation before the first region writes the weights. -/
theorem v5_w_any (c : Dev nD) : V5 mF ρ c main_arg1 = mF ((c : Thread nD τ).loc main_arg1) := by
  show StableHlo.after hostOps0_4 (StableHlo.after hostOps0_3 (StableHlo.after hostOps0_2 (StableHlo.after hostOps0_1
    (StableHlo.after hostOps0 (W0 mF ρ c))))) (Proc.devRef .tc main_arg1) = _
  after_results_simp <;> rfl

end AnyInstance

/-- The aggregated features are the reference's, as one function of the node features and the two edge lists. -/
theorem v5_agg (c : Dev nD) :
    (V5 m ρ c main_v22 : Vec Ideal S50000x128 .f32)
      = Cert.ReferenceIdeal.Read.val_main_v22 (F := Ideal) (m ((c : Thread nD τ).loc main_arg0)) (m ((c : Thread nD τ).loc main_arg4))
          (m ((c : Thread nD τ).loc main_arg5)) :=
  v5_agg_any ρ m c

/-- The in-degree column is the reference's clipped in-degree vector. -/
theorem v5_deg (c : Dev nD) (r : Fin 50000) :
    (V5 m ρ c main_v23 : Vec Ideal S50000x1 .f32) (ix2 r (0 : Fin 1))
      = Cert.ReferenceIdeal.Read.val_main_v8 (F := Ideal) (m ((c : Thread nD τ).loc main_arg5)) (ix1 r) := by
  rw [v5_deg_any ρ m c]
  exact shapeCast_a_a1_apply _ _ r 0

/-- The weights reach the region as launched. -/
theorem v5_w (c : Dev nD) : V5 m ρ c main_arg1 = m ((c : Thread nD τ).loc main_arg1) :=
  v5_w_any ρ m c

end Cert.KernelIdeal.Host

end
-- ==== Proof.RefVal.lean ====
/-
  The reference, read at one entry of its result.

  From the aggregated features and the clipped in-degrees the reference projects every row, takes the column means
  and the variance as the mean of the squared deviations, and finishes each row as the kernel does.
-/
import proofs.«125863_j61847529063045_1_alg».proof.Proof.Gen.ReferenceIdeal.Read
import proofs.«125863_j61847529063045_1_alg».proof.Proof.Spec
import proofs.«125863_j61847529063045_1_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.ReferenceIdeal.RefVal

open Cert.ReferenceIdeal Cert.ReferenceIdeal.Gen Cert.ReferenceIdeal.Read

variable (x0 : (⟨S50000x128, .f32⟩ : BufTy).Contents (Elt Ideal)) (x1 : (⟨S128x128, .f32⟩ : BufTy).Contents (Elt Ideal))
  (x2 x3 : (⟨S128, .f32⟩ : BufTy).Contents (Elt Ideal)) (x4 x5 : (⟨S600000, .i32⟩ : BufTy).Contents (Elt Ideal))

/-- Row `r` of the projection, from the reference's aggregated features and clipped in-degrees. -/
def P (r : Fin 50000) (j : Fin 128) : EReal :=
  Cert.Spec.proj (fun k => val_main_v22 (F := Ideal) x0 x4 x5 (ix2 r k)) (val_main_v8 (F := Ideal) x5 (ix1 r))
    (fun k j => x1 (ix2 k j)) j

/-- Coordinates of composed index maps: each is an index built from its coordinates. -/
theorem lidx_v27 (r : Fin 50000) (j k : Fin 128) : lidx_main_v27 (ix2 r j) k = ix2 r k :=
  funext fun a => Fin.ext (by match a with | ⟨0, _⟩ => rfl | ⟨1, _⟩ => rfl)
theorem ridx_v27 (r : Fin 50000) (j k : Fin 128) : ridx_main_v27 (ix2 r j) k = ix2 k j :=
  funext fun a => Fin.ext (by match a with | ⟨0, _⟩ => rfl | ⟨1, _⟩ => rfl)
theorem idx_v24_v25 (r : Fin 50000) (k : Fin 128) : idx_main_v24 (idx_main_v25 (ix2 r k)) = ix1 r :=
  funext fun a => Fin.ext (by match a with | ⟨0, _⟩ => rfl)
theorem idx_v28 (j : Fin 128) (k : Fin 50000) : idx_main_v28 (ix1 j) k = ix2 k j :=
  funext fun a => Fin.ext (by match a with | ⟨0, _⟩ => rfl | ⟨1, _⟩ => rfl)
theorem idx_v35 (j : Fin 128) (k : Fin 50000) : idx_main_v35 (ix1 j) k = ix2 k j :=
  funext fun a => Fin.ext (by match a with | ⟨0, _⟩ => rfl | ⟨1, _⟩ => rfl)
theorem idx_v31_v32 (r : Fin 50000) (j : Fin 128) : idx_main_v31 (idx_main_v32 (ix2 r j)) = ix1 j :=
  funext fun a => Fin.ext (by match a with | ⟨0, _⟩ => rfl)
theorem idx_v38_v39 (r : Fin 50000) (j : Fin 128) : idx_main_v38 (idx_main_v39 (ix2 r j)) = ix1 j :=
  funext fun a => Fin.ext (by match a with | ⟨0, _⟩ => rfl)
theorem idx_v44_v45 (r : Fin 50000) (j : Fin 128) : idx_main_v44 (idx_main_v45 (ix2 r j)) = ix1 j :=
  funext fun a => Fin.ext (by match a with | ⟨0, _⟩ => rfl)
theorem idx_v47_v48 (r : Fin 50000) (j : Fin 128) : idx_main_v47 (idx_main_v48 (ix2 r j)) = ix1 j :=
  funext fun a => Fin.ext (by match a with | ⟨0, _⟩ => rfl)
theorem idx_v50_v51 (r : Fin 50000) (j : Fin 128) : idx_main_v50 (idx_main_v51 (ix2 r j)) = ix1 j :=
  funext fun a => Fin.ext (by match a with | ⟨0, _⟩ => rfl)
theorem idx_v56_v60 (r : Fin 50000) (j : Fin 128) : idx_main_v56 (idx_main_v60 (ix2 r j)) = ix1 r :=
  funext fun a => Fin.ext (by match a with | ⟨0, _⟩ => rfl)
theorem idx_v55 (r : Fin 50000) (k : Fin 128) : idx_main_v55 (ix1 r) k = ix2 r k :=
  funext fun a => Fin.ext (by match a with | ⟨0, _⟩ => rfl | ⟨1, _⟩ => rfl)

/-- The product at (r, j) is the projected row's entry. -/
theorem v27_apply (r : Fin 50000) (j : Fin 128) :
    val_main_v27 (F := Ideal) x0 x1 x4 x5 (ix2 r j) = P x0 x1 x4 x5 r j := by
  rw [val_main_v27_apply]
  unfold P Cert.Spec.proj
  refine Finset.sum_congr rfl fun k _ => ?_
  rw [lidx_v27, ridx_v27, val_main_v26_apply, val_main_v25_apply, val_main_v24_apply, val_main_v23_apply,
    idx_v24_v25, Ideal.mulf_def, Ideal.hostUnary_rsqrt_def]

/-- The column mean. -/
theorem v30_apply (j : Fin 128) :
    val_main_v30 (F := Ideal) x0 x1 x4 x5 (ix1 j) = Cert.Spec.mean (P x0 x1 x4 x5) j := by
  rw [val_main_v30_apply, val_main_v28_apply, val_main_v29_apply, val_main_cst_7_apply, val_main_cst_6_apply,
    Ideal.hostDivf_def, Ideal.ofBits_def, Ideal.ofBits_def, Ideal.ofBits_zero_f32, zero_add]
  have hs : ∑ k : Fin 50000, val_main_v27 (F := Ideal) x0 x1 x4 x5 (idx_main_v28 (ix1 j) k)
      = ∑ r : Fin 50000, P x0 x1 x4 x5 r j :=
    Finset.sum_congr rfl fun k _ => by rw [idx_v28, v27_apply]
  rw [hs]
  rfl

/-- The deviation from the column mean. -/
theorem v33_apply (r : Fin 50000) (j : Fin 128) :
    val_main_v33 (F := Ideal) x0 x1 x4 x5 (ix2 r j)
      = P x0 x1 x4 x5 r j - Cert.Spec.mean (P x0 x1 x4 x5) j := by
  rw [val_main_v33_apply, val_main_v32_apply, val_main_v31_apply, idx_v31_v32, v27_apply, v30_apply,
    Ideal.subf_def]

/-- The variance: the mean of the squared deviations. -/
theorem v37_apply (j : Fin 128) :
    val_main_v37 (F := Ideal) x0 x1 x4 x5 (ix1 j) = Cert.Spec.varDev (P x0 x1 x4 x5) j := by
  rw [val_main_v37_apply, val_main_v35_apply, val_main_v36_apply, val_main_cst_9_apply, val_main_cst_8_apply,
    Ideal.hostDivf_def, Ideal.ofBits_def, Ideal.ofBits_def, Ideal.ofBits_zero_f32, zero_add]
  have hs : ∑ k : Fin 50000, val_main_v34 (F := Ideal) x0 x1 x4 x5 (idx_main_v35 (ix1 j) k)
      = ∑ r : Fin 50000, (P x0 x1 x4 x5 r j - Cert.Spec.mean (P x0 x1 x4 x5) j)
          * (P x0 x1 x4 x5 r j - Cert.Spec.mean (P x0 x1 x4 x5) j) :=
    Finset.sum_congr rfl fun k _ => by rw [idx_v35, val_main_v34_apply, v33_apply, Ideal.mulf_def]
  rw [hs]
  rfl

/-- The normalised, scaled, shifted and clipped entry. -/
theorem v53_apply (r : Fin 50000) (j : Fin 128) :
    val_main_v53 (F := Ideal) x0 x1 x2 x3 x4 x5 (ix2 r j)
      = Cert.Spec.act (P x0 x1 x4 x5 r) (Cert.Spec.mean (P x0 x1 x4 x5)) (Cert.Spec.varDev (P x0 x1 x4 x5))
          (fun j => x2 (ix1 j)) (fun j => x3 (ix1 j)) j := by
  rw [val_main_v53_apply, val_main_v52_apply, val_main_v49_apply, val_main_v46_apply, val_main_v40_apply,
    val_main_v39_apply, val_main_v38_apply, idx_v38_v39, v27_apply, v30_apply,
    val_main_v45_apply, val_main_v44_apply, idx_v44_v45, val_main_v43_apply, val_main_v42_apply, v37_apply,
    val_main_v41_apply, val_main_cst_10_apply,
    val_main_v48_apply, val_main_v47_apply, idx_v47_v48,
    val_main_v51_apply, val_main_v50_apply, idx_v50_v51,
    val_main_call2_v0_apply, val_main_call2_cst_apply,
    Ideal.maximumf_def, Ideal.addf_def, Ideal.mulf_def, Ideal.mulf_def, Ideal.subf_def, Ideal.hostUnary_rsqrt_def,
    Ideal.addf_def, Ideal.ofBits_def, Ideal.ofBits_def, Ideal.ofBits_zero_f32]
  rfl

/-- The reference's result at (r, j). -/
theorem out_apply (r : Fin 50000) (j : Fin 128) :
    val_main_v61 (F := Ideal) x0 x1 x2 x3 x4 x5 (ix2 r j)
      = Cert.Spec.outRow (P x0 x1 x4 x5 r) (Cert.Spec.mean (P x0 x1 x4 x5)) (Cert.Spec.varDev (P x0 x1 x4 x5))
          (fun j => x2 (ix1 j)) (fun j => x3 (ix1 j)) j := by
  rw [val_main_v61_apply, val_main_v60_apply, val_main_v59_apply, val_main_v57_apply, val_main_v56_apply,
    idx_v56_v60, val_main_v55_apply, val_main_v58_apply, val_main_cst_12_apply, val_main_cst_11_apply, v53_apply,
    Ideal.hostDivf_def, Ideal.maximumf_def, Ideal.hostUnary_sqrt_def, Ideal.ofBits_def, Ideal.ofBits_def,
    Ideal.ofBits_zero_f32, zero_add]
  have hs : ∑ k : Fin 128, val_main_v54 (F := Ideal) x0 x1 x2 x3 x4 x5 (idx_main_v55 (ix1 r) k)
      = ∑ l : Fin 128,
          Cert.Spec.act (P x0 x1 x4 x5 r) (Cert.Spec.mean (P x0 x1 x4 x5)) (Cert.Spec.varDev (P x0 x1 x4 x5))
              (fun j => x2 (ix1 j)) (fun j => x3 (ix1 j)) l
            * Cert.Spec.act (P x0 x1 x4 x5 r) (Cert.Spec.mean (P x0 x1 x4 x5)) (Cert.Spec.varDev (P x0 x1 x4 x5))
              (fun j => x2 (ix1 j)) (fun j => x3 (ix1 j)) l :=
    Finset.sum_congr rfl fun l _ => by rw [idx_v55, val_main_v54_apply, v53_apply, Ideal.mulf_def]
  rw [hs]
  rfl

end Cert.ReferenceIdeal.RefVal

end
-- ==== Proof.KVal.lean ====
/-
  The kernel program's result, entry by entry, from the launch memory.

  The last region's result array is, row by row, the finishing function of the projected array's row and four one-row
  arrays; the host stretch between the regions makes those rows from the first region's accumulators (the column
  means, and the variance as the mean of the squares minus the square of the mean) and from the scale and shift
  vectors; the first region's three arrays are the projection and its column sums. Put together: entry (r, j) of the
  result is `outRow` of projected row `r` with the column means and that variance of all 50000 projected rows.
-/
import proofs.«125863_j61847529063045_1_alg».proof.Proof.KRun
import proofs.«125863_j61847529063045_1_alg».proof.Proof.KReg0
import proofs.«125863_j61847529063045_1_alg».proof.Proof.KReg1
import proofs.«125863_j61847529063045_1_alg».proof.Proof.KHost
import proofs.«125863_j61847529063045_1_alg».proof.Proof.RefVal

noncomputable section

open Idealize.ShloMosaic Idealize.ShloMosaic.TcCoe Idealize.SL.Sem Idealize.ShloMosaic.ValueIdx

namespace Cert.KernelIdeal.KVal

open Cert.KernelIdeal Cert.KernelIdeal.Gen

variable (m : (ℓ : Loc nD τ sig) → Buf (Elt Ideal) ℓ) (ρ : Dev nD → PrngReg)

/-- The projected rows, from the arrays the first region is entered with. -/
abbrev PK (c : Dev nD) (r : Fin 50000) (j : Fin 128) : EReal := Reg0.P (V5 m ρ) c r j

/-- The kernel's result at (r, j). -/
theorem result_apply (c : Dev nD) (r : Fin 50000) (j : Fin 128) :
    (W8 m ρ c (Proc.devRef .tc main_v33) : Vec Ideal S50000x128 .f32) (ix2 r j)
      = Cert.Spec.outRow (PK m ρ c r) (Cert.Spec.mean (PK m ρ c)) (Cert.Spec.varSq (PK m ρ c))
          (fun j => (m ((c : Thread nD τ).loc main_arg2) : Vec Ideal S128 .f32) (ix1 j))
          (fun j => (m ((c : Thread nD τ).loc main_arg3) : Vec Ideal S128 .f32) (ix1 j)) j := by
  have e8 : W8 m ρ c (Proc.devRef .tc main_v33) = (dat1 (V7 m ρ) c).arrAt 5 cfg1.N := W8_arr m ρ c 5
  rw [e8, Reg1.arr5 (V7 m ρ) c r j]
  have hmean : ∀ l : Fin 128, (V7 m ρ c main_v26 : Vec Ideal S1x128 .f32) (ix2 (0 : Fin 1) l) = Cert.Spec.mean (PK m ρ c) l := fun l => by
    show Host.meanAt m ρ c l = _
    rw [Host.v7_mean, Reg0.arr4]
    rfl
  have hvar : ∀ l : Fin 128, (V7 m ρ c main_v30 : Vec Ideal S1x128 .f32) (ix2 (0 : Fin 1) l) = Cert.Spec.varSq (PK m ρ c) l := fun l => by
    rw [Host.v7_var, Reg0.arr5]
    have hm : Host.meanAt m ρ c l = Cert.Spec.mean (PK m ρ c) l := hmean l
    rw [hm]
    rfl
  have hproj : ∀ l : Fin 128, (V7 m ρ c main_v24_0 : Vec Ideal S50000x128 .f32) (ix2 r l) = PK m ρ c r l := fun l => by
    rw [Host.v7_proj]
    exact Reg0.arr3 (V5 m ρ) c r l
  have hg : ∀ l : Fin 128, (V7 m ρ c main_v31 : Vec Ideal S1x128 .f32) (ix2 (0 : Fin 1) l)
      = (m ((c : Thread nD τ).loc main_arg2) : Vec Ideal S128 .f32) (ix1 l) := fun l => Host.v7_gamma m ρ c l
  have hb : ∀ l : Fin 128, (V7 m ρ c main_v32 : Vec Ideal S1x128 .f32) (ix2 (0 : Fin 1) l)
      = (m ((c : Thread nD τ).loc main_arg3) : Vec Ideal S128 .f32) (ix1 l) := fun l => Host.v7_beta m ρ c l
  simp only [hmean, hvar, hproj, hg, hb]

/-- The projected rows are the reference's, of the same launch arrays. -/
theorem PK_eq (c : Dev nD) (r : Fin 50000) (j : Fin 128) :
    PK m ρ c r j = Cert.ReferenceIdeal.RefVal.P (m ((c : Thread nD τ).loc main_arg0)) (m ((c : Thread nD τ).loc main_arg1))
      (m ((c : Thread nD τ).loc main_arg4)) (m ((c : Thread nD τ).loc main_arg5)) r j := by
  unfold PK Reg0.P Cert.ReferenceIdeal.RefVal.P
  rw [Host.v5_deg m ρ c r, Host.v5_w m ρ c]
  simp only [Host.v5_agg m ρ c]

end Cert.KernelIdeal.KVal

end
-- ==== Proof.Finite.lean ====
/-
  Finiteness of what the layer projects.

  The precondition says every entry of the node features and of the weights is finite. A degree is the larger of one
  and a count, so its reciprocal square root is finite; a gathered row is a row of the scaled features; and a
  scatter-add writes, at each entry, zero plus a finite sum of gathered entries. So every aggregated entry is finite.
-/
import proofs.«125863_j61847529063045_1_alg».proof.Proof.Gen.ReferenceIdeal.Read
import proofs.«125863_j61847529063045_1_alg».proof.Pre_finite_inputs
import proofs.«125863_j61847529063045_1_alg».proof.Proof.Gen.Pre_finite_inputs
import proofs.«125863_j61847529063045_1_alg».proof.Proof.Spec
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Predicate
import Idealize.ShloMosaic.PureOps.Ideal.Laws

noncomputable section

open Idealize.ShloMosaic Idealize.ShloMosaic.TcCoe Idealize.SL.Sem Idealize.ShloMosaic.ValueIdx

namespace Cert.ReferenceIdeal.Finite

open Cert.ReferenceIdeal Cert.ReferenceIdeal.Gen Cert.ReferenceIdeal.Read Cert.Reals

variable (x0 : (⟨S50000x128, .f32⟩ : BufTy).Contents (Elt Ideal)) (x1 : (⟨S128x128, .f32⟩ : BufTy).Contents (Elt Ideal))
  (x2 x3 : (⟨S128, .f32⟩ : BufTy).Contents (Elt Ideal)) (x4 x5 : (⟨S600000, .i32⟩ : BufTy).Contents (Elt Ideal))

/-- The word of plus infinity denotes plus infinity. -/
theorem ofBits_inf : Ideal.ofBits .f32 0x7F800000#32 = ⊤ := by
  simp [Ideal.ofBits, Ideal.ieee]

/-- An extended real whose absolute value is strictly below plus infinity is a real number. -/
theorem isReal_of_abs_lt (x : EReal)
    (h : FloatOps.cmpf (F := Ideal) (φ := .f32) .olt (FloatOps.hostAbsf (F := Ideal) (φ := .f32) x) (FloatOps.ofBits .f32 0x7F800000#32) = 1#1) :
    IsReal x := by
  rw [Ideal.cmpf_def, Ideal.hostAbsf_def, Ideal.absf_def, Ideal.ofBits_def, ofBits_inf] at h
  induction x using EReal.rec with
  | bot => simp [Ideal.cmp] at h
  | top => simp [Ideal.cmp] at h
  | coe r => exact isReal_coe r

/-- Under the precondition every node feature and every weight is a real number. -/
theorem real_of_pre (h : Cert.Pre_finite_inputs.fn (F := Ideal) x0 x1 x2 x3 x4 x5 = fun _ => 1#1) :
    (∀ i, IsReal (x0 i)) ∧ (∀ i, IsReal (x1 i)) := by
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  have h0' : IntOp.andi _ _ = 1#1 := h0
  obtain ⟨h123, _⟩ := IntOp.andi_eq_one.1 h0'
  have h123' : IntOp.andi _ _ = 1#1 := h123
  obtain ⟨h12, _⟩ := IntOp.andi_eq_one.1 h123'
  have h12' : IntOp.andi _ _ = 1#1 := h12
  obtain ⟨h1, h2⟩ := IntOp.andi_eq_one.1 h12'
  refine ⟨fun i => ?_, fun i => ?_⟩
  · exact isReal_of_abs_lt (x0 i) (Host.reduce_andi_all _ _ _ _ _ h1 i)
  · exact isReal_of_abs_lt (x1 i) (Host.reduce_andi_all _ _ _ _ _ h2 i)

/-- A clipped degree is the larger of one and something. -/
theorem deg_max_one (i : S50000.Idx) : ∃ d : EReal, val_main_v8 (F := Ideal) x5 i = max 1 d := by
  refine ⟨val_main_v7 (F := Ideal) x5 i, ?_⟩
  rw [val_main_v8_apply, val_main_call1_v1_apply, val_main_call1_v0_apply, val_main_cst_3_apply, Ideal.maximumf_def,
    Ideal.ofBits_def, ofBits_one]

/-- An accumulating scatter of finite updates into a finite operand is finite at every entry: the entry is the operand's
    plus a finite sum of updates. -/
theorem isReal_scatterAdd {s si su : Shape} (d : ScatterDims s si su) {w : Nat} (x : FVec Ideal s .f32) (idx : IVec si w)
    (upd : FVec Ideal su .f32) (hx : ∀ i, IsReal (x i)) (hu : ∀ j, IsReal (upd j)) (i : s.Idx) :
    IsReal (Host.scatterAdd d x idx upd i) := by
  show IsReal (x i + ∑ j ∈ Finset.univ.filter (fun j => d.resultIdx? j idx = some i), upd j)
  exact (hx i).add (isReal_sum _ _ fun j _ => hu j)

/-- The scaled features are finite: a finite feature times the reciprocal square root of the larger of one and a count. -/
theorem real_scaled (h0 : ∀ i, IsReal (x0 i)) (i : S50000x128.Idx) : IsReal (val_main_v12 (F := Ideal) x0 x4 i) := by
  rw [val_main_v12_apply, val_main_v11_apply, val_main_v10_apply, val_main_v9_apply, val_main_v4_apply,
    val_main_call0_v1_apply, val_main_call0_v0_apply, val_main_cst_1_apply, Ideal.mulf_def, Ideal.hostUnary_rsqrt_def,
    Ideal.maximumf_def, Ideal.ofBits_def, ofBits_one]
  exact (h0 i).mul (isReal_rsqrt_max_one _)

/-- With finite node features every aggregated entry is finite. -/
theorem real_agg (h0 : ∀ i, IsReal (x0 i)) (i : S50000x128.Idx) : IsReal (val_main_v22 (F := Ideal) x0 x4 x5 i) := by
  unfold val_main_v22
  refine isReal_scatterAdd _ _ _ _ (fun k => ?_) (fun j => ?_) i
  · rw [val_main_v20_apply, val_main_cst_5_apply, Ideal.ofBits_def]
    exact ⟨0, by simp [Ideal.ofBits, Ideal.ieee]⟩
  · show IsReal (val_main_v12 (F := Ideal) x0 x4 _)
    exact real_scaled x0 x4 h0 _

end Cert.ReferenceIdeal.Finite

end
-- ==== Proof.Bridge.lean ====
/-
  The reference's entry with the variance written the kernel's way.

  Under the precondition the node features and the weights are finite, so every aggregated entry is finite; a degree
  is at least one, so every projected entry is finite; and for finite columns the mean of the squared deviations is
  the mean of the squares minus the square of the mean. So the reference's result at (r, j) is `outRow` of the
  projected row with the column means and the variance in the second spelling.
-/
import proofs.«125863_j61847529063045_1_alg».proof.Proof.RefVal
import proofs.«125863_j61847529063045_1_alg».proof.Proof.Finite

noncomputable section

open Idealize.ShloMosaic Idealize.ShloMosaic.TcCoe Idealize.SL.Sem Idealize.ShloMosaic.ValueIdx

namespace Cert.ReferenceIdeal.Bridge

open Cert.ReferenceIdeal Cert.ReferenceIdeal.Gen Cert.ReferenceIdeal.Read Cert.Reals

variable (x0 : (⟨S50000x128, .f32⟩ : BufTy).Contents (Elt Ideal)) (x1 : (⟨S128x128, .f32⟩ : BufTy).Contents (Elt Ideal))
  (x2 x3 : (⟨S128, .f32⟩ : BufTy).Contents (Elt Ideal)) (x4 x5 : (⟨S600000, .i32⟩ : BufTy).Contents (Elt Ideal))

/-- Every projected entry is finite when the node features and the weights are. -/
theorem isReal_P (h0 : ∀ i, IsReal (x0 i)) (h1 : ∀ i, IsReal (x1 i)) (r : Fin 50000) (j : Fin 128) :
    IsReal (RefVal.P x0 x1 x4 x5 r j) := by
  unfold RefVal.P
  obtain ⟨d, hd⟩ := Finite.deg_max_one x5 (ix1 r)
  rw [hd]
  exact Cert.Spec.isReal_proj _ (fun k => Finite.real_agg x0 x4 x5 h0 _) d _ (fun k l => h1 _) j

/-- The reference's result at (r, j), with the variance as the mean of the squares minus the square of the mean. -/
theorem out_apply_sq (h : Cert.Pre_finite_inputs.fn (F := Ideal) x0 x1 x2 x3 x4 x5 = fun _ => 1#1) (r : Fin 50000) (j : Fin 128) :
    val_main_v61 (F := Ideal) x0 x1 x2 x3 x4 x5 (ix2 r j)
      = Cert.Spec.outRow (RefVal.P x0 x1 x4 x5 r) (Cert.Spec.mean (RefVal.P x0 x1 x4 x5)) (Cert.Spec.varSq (RefVal.P x0 x1 x4 x5))
          (fun j => x2 (ix1 j)) (fun j => x3 (ix1 j)) j := by
  obtain ⟨h0, h1⟩ := Finite.real_of_pre x0 x1 x2 x3 x4 x5 h
  rw [RefVal.out_apply]
  have e : Cert.Spec.varDev (RefVal.P x0 x1 x4 x5) = Cert.Spec.varSq (RefVal.P x0 x1 x4 x5) :=
    funext fun l => Cert.Spec.varDev_eq_varSq _ (isReal_P x0 x1 x4 x5 h0 h1) l
  rw [e]

end Cert.ReferenceIdeal.Bridge

end
-- ==== Proof.lean ====
/-
  A graph-convolution layer: degree-normalised aggregation over the edges, a linear map, batch normalisation with the
  batch's own statistics, a clip at zero, and a row-wise division by the Euclidean norm.

  Both programs build the aggregated features and the clipped degrees by the same host operations. The kernel program
  then projects the rows tile by tile, summing each column and each column of squares across the ten tiles, forms the
  variance as the mean of the squares minus the square of the mean, and finishes every row in a second pass. The
  reference projects all rows at once, takes the variance as the mean of the squared deviations from the mean, and
  finishes the rows the same way. On the extended reals sums regroup freely, so the tiled column sums are the whole
  column sums; the two variances agree because every projected entry is finite — the inputs are finite by the
  precondition, a degree is at least one so its reciprocal square root is finite, and gathers, scatter-adds and
  products of finite values are finite. With equal statistics each finished row is the same function of the same
  projected row.
-/
import proofs.«125863_j61847529063045_1_alg».proof.Defs
import proofs.«125863_j61847529063045_1_alg».proof.Proof.Gen.Kernel
import proofs.«125863_j61847529063045_1_alg».proof.Proof.Gen.Kernel.Skeleton
import proofs.«125863_j61847529063045_1_alg».proof.Proof.Gen.Kernel.Launch
import proofs.«125863_j61847529063045_1_alg».proof.Proof.Gen.Kernel.Points
import proofs.«125863_j61847529063045_1_alg».proof.Proof.Gen.Kernel.Frame
import proofs.«125863_j61847529063045_1_alg».proof.Proof.Gen.KernelIdeal
import proofs.«125863_j61847529063045_1_alg».proof.Proof.Gen.KernelIdeal.Skeleton
import proofs.«125863_j61847529063045_1_alg».proof.Proof.Gen.KernelIdeal.Launch
import proofs.«125863_j61847529063045_1_alg».proof.Proof.Gen.KernelIdeal.Points
import proofs.«125863_j61847529063045_1_alg».proof.Proof.Gen.KernelIdeal.Frame
import proofs.«125863_j61847529063045_1_alg».proof.Proof.Gen.ReferenceIdeal
import proofs.«125863_j61847529063045_1_alg».proof.Proof.Gen.Pre_finite_inputs
import proofs.«125863_j61847529063045_1_alg».proof.Proof.Gen.ReferenceIdeal.Run
import proofs.«125863_j61847529063045_1_alg».proof.Proof.Gen.ReferenceIdeal.Read
import proofs.«125863_j61847529063045_1_alg».proof.Proof.KRun
import proofs.«125863_j61847529063045_1_alg».proof.Proof.KVal
import proofs.«125863_j61847529063045_1_alg».proof.Proof.Bridge
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the same result array: entry (r, j) of either is the finished projected row `r` at `j`, with the
    column means and the variance of all projected rows. -/
theorem algebraic : Cert.algebraic_KernelIdeal_ReferenceIdeal := by
  intro m ρ m' ρ' hpre hagree
  refine ⟨fun c => Cert.KernelIdeal.Gen.W8 m ρ c (Proc.devRef .tc Cert.KernelIdeal.main_v33),
    Cert.KernelIdeal.GenP.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v61_eq, (hagree c).1, (hagree c).2.1, (hagree c).2.2.1, (hagree c).2.2.2.1,
    (hagree c).2.2.2.2.1, (hagree c).2.2.2.2.2]
  funext i
  obtain ⟨r, j, rfl⟩ : ∃ (r : Fin 50000) (j : Fin 128), i = ix2 r j := ⟨i 0, i 1, eq_ix2 i⟩
  have eP : Cert.KernelIdeal.KVal.PK m ρ c = Cert.ReferenceIdeal.RefVal.P
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) :=
    funext fun r => funext fun j => Cert.KernelIdeal.KVal.PK_eq m ρ c r j
  refine (Cert.ReferenceIdeal.Bridge.out_apply_sq _ _ _ _ _ _ (hpre c) r j).trans ?_
  refine Eq.trans ?_ (Cert.KernelIdeal.KVal.result_apply m ρ c r j).symm
  rw [eP]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
